-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S256x256 : Shape := ⟨2, ![256, 256]⟩
abbrev S256x1 : Shape := ⟨2, ![256, 1]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_

variable [Facts]

def fn_part1 {F : FTy → Type} [FloatOps F] (main_v13 : IVec S_ 1) (main_v16 : IVec S256x1 1) : IVec S_ 1 :=
  let main_c_5 : IVec S_ 1 := constantI S_ 1 1#1
  let main_v17 : IVec S_ 1 := (fun x v => Host.reduce IntOp.andi x v reducesTo_S256x1_S_d0_1 h_S_) main_v16 main_c_5
  let main_v18 : IVec S_ 1 := andi main_v13 main_v17
  main_v18

def fn {F : FTy → Type} [FloatOps F] (main_arg0 : FVec F S8192x256 .f32) (main_arg1 : IVec S8192x8192 32) (main_arg2 : FVec F S256x256 .f32) (main_arg3 : FVec F S256x1 .f32) (main_arg4 : FVec F S256x1 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x1 .f32 := Host.absf main_arg3
  let main_cst_2 : FVec F S_ .f32 := constant S_ .f32 0x7F800000#32
  let main_v10 : FVec F S256x1 .f32 := broadcastInDim S256x1 ![] bcast_S_S256x1 main_cst_2
  let main_v11 : IVec S256x1 1 := cmpf .olt main_v9 main_v10
  let main_c_3 : IVec S_ 1 := constantI S_ 1 1#1
  let main_v12 : IVec S_ 1 := (fun x v => Host.reduce IntOp.andi x v reducesTo_S256x1_S_d0_1 h_S_) main_v11 main_c_3
  let main_v13 : IVec S_ 1 := andi main_v8 main_v12
  let main_v14 : FVec F S256x1 .f32 := Host.absf main_arg4
  let main_cst_4 : FVec F S_ .f32 := constant S_ .f32 0x7F800000#32
  let main_v15 : FVec F S256x1 .f32 := broadcastInDim S256x1 ![] bcast_S_S256x1 main_cst_4
  let main_v16 : IVec S256x1 1 := cmpf .olt main_v14 main_v15
  fn_part1 (F := F) main_v13 main_v16
-- ==== Kernel.lean ====
abbrev S8192x256 : Shape := ⟨2, ![8192, 256]⟩
abbrev S8192x8192 : Shape := ⟨2, ![8192, 8192]⟩
abbrev S256x256 : Shape := ⟨2, ![256, 256]⟩
abbrev S256x1 : Shape := ⟨2, ![256, 1]⟩
abbrev S8192x1 : Shape := ⟨2, ![8192, 1]⟩
abbrev S1x8192 : Shape := ⟨2, ![1, 8192]⟩
abbrev S1024x1 : Shape := ⟨2, ![1024, 1]⟩
abbrev S1x1024 : Shape := ⟨2, ![1, 1024]⟩
abbrev S1024x1024 : Shape := ⟨2, ![1024, 1024]⟩
abbrev S1024x256 : Shape := ⟨2, ![1024, 256]⟩
abbrev S1024 : Shape := ⟨1, ![1024]⟩

abbrev nBuf : Space → Nat
  | .hbm => 11
  | .vmem => 12
  | .smem => 0
  | _ => 0

abbrev bufTy : (tb : Table) → Fin (tcTables nBuf tb) → BufTy
  | .hbm, ⟨0, _⟩ => ⟨S8192x256, .f32⟩
  | .hbm, ⟨1, _⟩ => ⟨S8192x8192, .i32⟩
  | .hbm, ⟨2, _⟩ => ⟨S256x256, .f32⟩
  | .hbm, ⟨3, _⟩ => ⟨S256x1, .f32⟩
  | .hbm, ⟨4, _⟩ => ⟨S256x1, .f32⟩
  | .hbm, ⟨5, _⟩ => ⟨S8192x256, .f32⟩
  | .hbm, ⟨6, _⟩ => ⟨S8192x1, .f32⟩
  | .hbm, ⟨7, _⟩ => ⟨S8192x1, .f32⟩
  | .hbm, ⟨8, _⟩ => ⟨S1x8192, .f32⟩
  | .hbm, ⟨9, _⟩ => ⟨S8192x256, .bf16⟩
  | .hbm, ⟨10, _⟩ => ⟨S8192x256, .f32⟩
  | .local _ .vmem, ⟨0, _⟩ => ⟨S1024x1, .f32⟩
  | .local _ .vmem, ⟨1, _⟩ => ⟨S1024x1, .f32⟩
  | .local _ .vmem, ⟨2, _⟩ => ⟨S1x1024, .f32⟩
  | .local _ .vmem, ⟨3, _⟩ => ⟨S1x1024, .f32⟩
  | .local _ .vmem, ⟨4, _⟩ => ⟨S1024x1024, .i32⟩
  | .local _ .vmem, ⟨5, _⟩ => ⟨S1024x1024, .i32⟩
  | .local _ .vmem, ⟨6, _⟩ => ⟨S8192x256, .bf16⟩
  | .local _ .vmem, ⟨7, _⟩ => ⟨S1024x256, .f32⟩
  | .local _ .vmem, ⟨8, _⟩ => ⟨S1024x256, .f32⟩
  | .local _ .vmem, ⟨9, _⟩ => ⟨S1024x1, .f32⟩
  | .local _ .vmem, ⟨10, _⟩ => ⟨S1024x1, .f32⟩
  | .local _ .vmem, ⟨11, _⟩ => ⟨S1024x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c1024_i32 : BitVec 32 := 1024#32
  let v38 : BitVec 32 := Scalar.muli arg1 c1024_i32
  v38
def k0_off1 (i : grid0.Coords) : Fin 2 → Nat :=
  let arg1 : BitVec 32 := BitVec.ofNat 32 (i 1).val
  let c1024_i32 : BitVec 32 := 1024#32
  let v38 : BitVec 32 := Scalar.muli arg1 c1024_i32
  let v39 : BitVec 32 := v38
  let v40 : Index := Scalar.indexCast v39
  let c0_19 : Index := 0#32
  ![v40.toNat, 0]
def k0_cond2 (i : grid0.Coords) : BitVec 1 :=
  let arg1 : BitVec 32 := BitVec.ofNat 32 (i 1).val
  let c7_i32 : BitVec 32 := 7#32
  let v55 : BitVec 1 := Scalar.cmpi .eq arg1 c7_i32
  let v56 : BitVec 32 := Scalar.extui v55
  let c0_i32_27 : BitVec 32 := 0#32
  let v57 : BitVec 1 := Scalar.cmpi .ne v56 c0_i32_27
  v57

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8192x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  transposes_S8192x1_S1x8192_1_0 : S8192x1.Transposes [1, 0] S1x8192
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  broadcasts_S1024x1_S1024x256 : S1024x1.Broadcasts S1024x256
  dot_S8192x256_S256x256_S8192x256_1_0_0_1_n_n_wf : DotDims.WF S8192x256 S256x256 S8192x256 [1] [0] [0] [1] [] []
  dot_S8192x256_S256x1_S8192x1_1_0_0_1_n_n_wf : DotDims.WF S8192x256 S256x1 S8192x1 [1] [0] [0] [1] [] []
  dot_S1024x1024_S1024x256_S1024x256_1_0_0_1_n_n_wf : DotDims.WF S1024x1024 S1024x256 S1024x256 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1024x256.size a ≤ S8192x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S8192x1.size a
  hwx0_0 : ∀ i : grid0.Coords, EltTy.bits .f32 = 32 ∨ (Rect.block (s := S8192x1) S1024x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x8192.size a
  hwx0_1 : ∀ i : grid0.Coords, EltTy.bits .f32 = 32 ∨ (Rect.block (s := S1x8192) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .i32 = 32 ∨ (Rect.block (s := S8192x8192) S1024x1024.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8192x256.size a ≤ S8192x256.size a
  hwx0_3 : ∀ i : grid0.Coords, EltTy.bits .bf16 = 32 ∨ (Rect.block (s := S8192x256) S8192x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S8192x256.size a
  hwx0_4 : ∀ i : grid0.Coords, EltTy.bits .f32 = 32 ∨ (Rect.block (s := S8192x256) S1024x256.size (cc0_transform_4 i) (hinb0_4 i)).WholeWords (EltTy.packing .f32)

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x1_S8192x1_1_0_0_1_n_n : DotDims S8192x256 S256x1 S8192x1 where
  lhsContracting := [1]
  rhsContracting := [0]
  lhsNonContracting := [0]
  rhsNonContracting := [1]
  lhsBatch := []
  rhsBatch := []
  wf := dot_S8192x256_S256x1_S8192x1_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_call0_v1) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v3) S1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v4) S8192x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1024x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x256 : Shape := ⟨2, ![8192, 256]⟩
abbrev S8192x8192 : Shape := ⟨2, ![8192, 8192]⟩
abbrev S256x256 : Shape := ⟨2, ![256, 256]⟩
abbrev S256x1 : Shape := ⟨2, ![256, 1]⟩
abbrev S8192x1 : Shape := ⟨2, ![8192, 1]⟩
abbrev S1x8192 : Shape := ⟨2, ![1, 8192]⟩
abbrev S_ : Shape := ⟨0, ![]⟩
abbrev S8192 : Shape := ⟨1, ![8192]⟩

abbrev nBuf : Space → Nat
  | .hbm => 57
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x8192, .i32⟩
  | .hbm, ⟨2, _⟩ => ⟨S256x256, .f32⟩
  | .hbm, ⟨3, _⟩ => ⟨S256x1, .f32⟩
  | .hbm, ⟨4, _⟩ => ⟨S256x1, .f32⟩
  | .hbm, ⟨5, _⟩ => ⟨S8192x256, .f32⟩
  | .hbm, ⟨6, _⟩ => ⟨S8192x1, .f32⟩
  | .hbm, ⟨7, _⟩ => ⟨S8192x1, .f32⟩
  | .hbm, ⟨8, _⟩ => ⟨S1x8192, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S_, .f32⟩
  | .hbm, ⟨14, _⟩ => ⟨S8192x8192, .f32⟩
  | .hbm, ⟨15, _⟩ => ⟨S8192x8192, .i1⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S_, .i32⟩
  | .hbm, ⟨21, _⟩ => ⟨S8192x8192, .i32⟩
  | .hbm, ⟨22, _⟩ => ⟨S8192x8192, .i1⟩
  | .hbm, ⟨23, _⟩ => ⟨S_, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S8192x1, .f32⟩
  | .hbm, ⟨33, _⟩ => ⟨S8192x8192, .f32⟩
  | .hbm, ⟨34, _⟩ => ⟨S8192x8192, .f32⟩
  | .hbm, ⟨35, _⟩ => ⟨S8192x8192, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x8192, .f32⟩
  | .hbm, ⟨40, _⟩ => ⟨S8192x8192, .f32⟩
  | .hbm, ⟨41, _⟩ => ⟨S8192x256, .f32⟩
  | .hbm, ⟨42, _⟩ => ⟨S_, .f32⟩
  | .hbm, ⟨43, _⟩ => ⟨S8192x256, .f32⟩
  | .hbm, ⟨44, _⟩ => ⟨S8192x256, .i1⟩
  | .hbm, ⟨45, _⟩ => ⟨S_, .f32⟩
  | .hbm, ⟨46, _⟩ => ⟨S8192x256, .f32⟩
  | .hbm, ⟨47, _⟩ => ⟨S8192x256, .i1⟩
  | .hbm, ⟨48, _⟩ => ⟨S_, .f32⟩
  | .hbm, ⟨49, _⟩ => ⟨S_, .f32⟩
  | .hbm, ⟨50, _⟩ => ⟨S8192x256, .f32⟩
  | .hbm, ⟨51, _⟩ => ⟨S8192x256, .f32⟩
  | .hbm, ⟨52, _⟩ => ⟨S8192x256, .f32⟩
  | .hbm, ⟨53, _⟩ => ⟨S_, .f32⟩
  | .hbm, ⟨54, _⟩ => ⟨S8192x256, .f32⟩
  | .hbm, ⟨55, _⟩ => ⟨S8192x256, .f32⟩
  | .hbm, ⟨56, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_call1_v0 : Ref sig .tc := ⟨.hbm, 24, rfl⟩
abbrev main_call1_v1 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_call2_cst : Ref sig .tc := ⟨.hbm, 42, rfl⟩
abbrev main_call2_v0 : Ref sig .tc := ⟨.hbm, 43, rfl⟩
abbrev main_call2_v1 : Ref sig .tc := ⟨.hbm, 44, rfl⟩
abbrev main_call2_cst_0 : Ref sig .tc := ⟨.hbm, 45, rfl⟩
abbrev main_call2_v2 : Ref sig .tc := ⟨.hbm, 46, rfl⟩
abbrev main_call2_v3 : Ref sig .tc := ⟨.hbm, 47, rfl⟩
abbrev main_call2_cst_1 : Ref sig .tc := ⟨.hbm, 48, rfl⟩
abbrev main_call2_call0_v0 : Ref sig .tc := ⟨.hbm, 49, rfl⟩
abbrev main_call2_call0_v1 : Ref sig .tc := ⟨.hbm, 50, rfl⟩
abbrev main_call2_v4 : Ref sig .tc := ⟨.hbm, 51, rfl⟩
abbrev main_call2_v5 : Ref sig .tc := ⟨.hbm, 52, rfl⟩
abbrev main_call2_cst_2 : Ref sig .tc := ⟨.hbm, 53, rfl⟩
abbrev main_call2_v6 : Ref sig .tc := ⟨.hbm, 54, rfl⟩
abbrev main_call2_v7 : Ref sig .tc := ⟨.hbm, 55, rfl⟩
abbrev main_v23 : Ref sig .tc := ⟨.hbm, 56, rfl⟩

abbrev nD : Nat := 1
abbrev τ : Topo := Topo.v7x

variable {F : FTy → Type} [FloatOps F]

class Facts₀ : Prop where
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S_S8192x256 : S_.BroadcastsInDim S8192x256 (![] : Fin 0 → Fin S8192x256.rank)
  dot_S8192x256_S256x256_S8192x256_1_0_0_1_n_n_wf : DotDims.WF S8192x256 S256x256 S8192x256 [1] [0] [0] [1] [] []
  dot_S8192x256_S256x1_S8192x1_1_0_0_1_n_n_wf : DotDims.WF S8192x256 S256x1 S8192x1 [1] [0] [0] [1] [] []
  dot_S8192x8192_S8192x256_S8192x256_1_0_0_1_n_n_wf : DotDims.WF S8192x8192 S8192x256 S8192x256 [1] [0] [0] [1] [] []

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x1_S8192x1_1_0_0_1_n_n : DotDims S8192x256 S256x1 S8192x1 where
  lhsContracting := [1]
  rhsContracting := [0]
  lhsNonContracting := [0]
  rhsNonContracting := [1]
  lhsBatch := []
  rhsBatch := []
  wf := dot_S8192x256_S256x1_S8192x1_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.Pieces.lean ====
/-
  What one grid point of the kernel leaves in its three carried scratch buffers — the running row maximum, the
  running denominator and the running numerator — and, at a row block's last column tile, in the output block: each
  as the body's pure payload of the point's input blocks and of what the point before left.

  The first column tile of a row block (case A) first resets the three buffers (−∞, 0, 0) and then updates them, so
  its result is the update applied to the reset values; the later tiles (cases B and C) update what they find; the
  last one (case C) also stores elu(numerator / denominator), read from the buffers it has just updated.
-/
import proofs.«430110_j20169166422637_3_alg».proof.Proof.Gen.KernelIdeal.Frame
import Idealize.ShloMosaic.Lib.Pipeline.Value

set_option maxRecDepth 16384

noncomputable section

namespace Cert.KernelIdeal.Gen

open Idealize.ShloMosaic Idealize.ShloMosaic.TcCoe Idealize.ShloMosaic.Tactic

variable {F : FTy → Type} [FloatOps F]

/-- The all-zero offset of a rank-2 access. -/
theorem hz2 : (![0, 0] : Fin 2 → Nat) = fun _ => 0 := by
  funext a; match a with | ⟨0, _⟩ => rfl | ⟨1, _⟩ => rfl

/-- The 1024 rows of the resident value array that column tile `i 1` multiplies with: rows 1024·(i 1) onward. -/
def whTile (i : grid0.Coords) (x3 : Vec F S8192x256 .bf16) : Vec F S1024x256 .bf16 :=
  View.ld x3 (Rect.unit (s := S8192x256) (k0_off1 i) S1024x256.size (k0_off1_inb i))

/-! ## The first column tile of a row block -/

theorem sout0_A_0_eq (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond0_0 i) (hc1 : ¬cond0_1 i)
    (x0 : Vec F S1024x1 .f32) (x1 : Vec F S1x1024 .f32) (x2 : Vec F S1024x1024 .i32) (x3 : Vec F S8192x256 .bf16) :
    sout0_A_0 c i arg2 harg2 arg3 harg3 arg4 harg4 arg5 harg5 arg6 harg6 arg7 harg7 arg8 harg8 arg9 harg9 hc0 hc1 x0 x1 x2 x3 = k0_pay3 (k0_pay9 x0 x1 x2 k0_pay5) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3)]
  unfold kernelRun0_A
  dsimp only
  sl_unfold_run_names
  rw [View.canon_cons_unit_zero (S := S1024x1) hz2]
  simp only [View.readAt_eq_ld, harg2.read_unread, harg3.read_unread, harg4.read_unread, harg5.read_unread, harg7.read_unread, harg8.read_unread, harg9.read_unread, View.ld_unit_zero (S := S1024x1) hz2, View.ld_unit_zero (S := S1x1024) hz2, View.ld_unit_zero (S := S1024x1024) hz2, View.ld_unit_zero (S := S1024x256) hz2, View.readCov_unit_zero (S := S1024x1) _ hz2, View.readCov_unit_zero (S := S1024x256) _ hz2]
  try rfl

theorem sout0_A_1_eq (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond0_0 i) (hc1 : ¬cond0_1 i)
    (x0 : Vec F S1024x1 .f32) (x1 : Vec F S1x1024 .f32) (x2 : Vec F S1024x1024 .i32) (x3 : Vec F S8192x256 .bf16) :
    sout0_A_1 c i arg2 harg2 arg3 harg3 arg4 harg4 arg5 harg5 arg6 harg6 arg7 harg7 arg8 harg8 arg9 harg9 hc0 hc1 x0 x1 x2 x3 = k0_pay1 (k0_pay12 x0 x1 x2 k0_pay5 k0_pay5 k0_pay6) := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3)]
  unfold kernelRun0_A
  dsimp only
  sl_unfold_run_names
  rw [View.canon_cons_unit_zero (S := S1024x1) hz2]
  simp only [View.readAt_eq_ld, harg2.read_unread, harg3.read_unread, harg4.read_unread, harg5.read_unread, harg7.read_unread, harg8.read_unread, harg9.read_unread, View.ld_unit_zero (S := S1024x1) hz2, View.ld_unit_zero (S := S1x1024) hz2, View.ld_unit_zero (S := S1024x1024) hz2, View.ld_unit_zero (S := S1024x256) hz2, View.readCov_unit_zero (S := S1024x1) _ hz2, View.readCov_unit_zero (S := S1024x256) _ hz2]
  try rfl

theorem sout0_A_2_eq (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond0_0 i) (hc1 : ¬cond0_1 i)
    (x0 : Vec F S1024x1 .f32) (x1 : Vec F S1x1024 .f32) (x2 : Vec F S1024x1024 .i32) (x3 : Vec F S8192x256 .bf16) :
    sout0_A_2 c i arg2 harg2 arg3 harg3 arg4 harg4 arg5 harg5 arg6 harg6 arg7 harg7 arg8 harg8 arg9 harg9 hc0 hc1 x0 x1 x2 x3 = k0_pay2 (k0_pay10 x0 x1 x2 k0_pay5 k0_pay5) (k0_pay11 x0 x1 x2 k0_pay5) (whTile i x3) k0_pay7 := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1 x2 x3)]
  unfold kernelRun0_A
  dsimp only
  sl_unfold_run_names
  rw [View.canon_cons_unit_zero (S := S1024x256) hz2]
  simp only [View.readAt_eq_ld, harg2.read_unread, harg3.read_unread, harg4.read_unread, harg5.read_unread, harg7.read_unread, harg8.read_unread, harg9.read_unread, View.ld_unit_zero (S := S1024x1) hz2, View.ld_unit_zero (S := S1x1024) hz2, View.ld_unit_zero (S := S1024x1024) hz2, View.ld_unit_zero (S := S1024x256) hz2, View.readCov_unit_zero (S := S1024x1) _ hz2, View.readCov_unit_zero (S := S1024x256) _ hz2]
  try rfl

/-! ## A middle column tile -/

theorem sout0_B_0_eq (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond0_0 i) (hc1 : ¬cond0_1 i)
    (x0 : Vec F S1024x1 .f32) (x1 : Vec F S1x1024 .f32) (x2 : Vec F S1024x1024 .i32) (x3 : Vec F S8192x256 .bf16) (xs0 : Vec F S1024x1 .f32) (xs1 : Vec F S1024x1 .f32) (xs2 : Vec F S1024x256 .f32) :
    sout0_B_0 c i arg2 harg2 arg3 harg3 arg4 harg4 arg5 harg5 arg6 harg6 arg7 harg7 arg8 harg8 arg9 harg9 hc0 hc1 x0 x1 x2 x3 xs0 xs1 xs2 = k0_pay3 (k0_pay9 x0 x1 x2 xs0) := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_run_names
  rw [View.canon_unit_zero (S := S1024x1) hz2]
  simp only [View.readAt_eq_ld, harg2.read_unread, harg3.read_unread, harg4.read_unread, harg5.read_unread, harg7.read_unread, harg8.read_unread, harg9.read_unread, View.ld_unit_zero (S := S1024x1) hz2, View.ld_unit_zero (S := S1x1024) hz2, View.ld_unit_zero (S := S1024x1024) hz2, View.ld_unit_zero (S := S1024x256) hz2, View.readCov_unit_zero (S := S1024x1) _ hz2, View.readCov_unit_zero (S := S1024x256) _ hz2]
  try rfl

theorem sout0_B_1_eq (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond0_0 i) (hc1 : ¬cond0_1 i)
    (x0 : Vec F S1024x1 .f32) (x1 : Vec F S1x1024 .f32) (x2 : Vec F S1024x1024 .i32) (x3 : Vec F S8192x256 .bf16) (xs0 : Vec F S1024x1 .f32) (xs1 : Vec F S1024x1 .f32) (xs2 : Vec F S1024x256 .f32) :
    sout0_B_1 c i arg2 harg2 arg3 harg3 arg4 harg4 arg5 harg5 arg6 harg6 arg7 harg7 arg8 harg8 arg9 harg9 hc0 hc1 x0 x1 x2 x3 xs0 xs1 xs2 = k0_pay1 (k0_pay12 x0 x1 x2 xs0 xs0 xs1) := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_run_names
  rw [View.canon_unit_zero (S := S1024x1) hz2]
  simp only [View.readAt_eq_ld, harg2.read_unread, harg3.read_unread, harg4.read_unread, harg5.read_unread, harg7.read_unread, harg8.read_unread, harg9.read_unread, View.ld_unit_zero (S := S1024x1) hz2, View.ld_unit_zero (S := S1x1024) hz2, View.ld_unit_zero (S := S1024x1024) hz2, View.ld_unit_zero (S := S1024x256) hz2, View.readCov_unit_zero (S := S1024x1) _ hz2, View.readCov_unit_zero (S := S1024x256) _ hz2]
  try rfl

theorem sout0_B_2_eq (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond0_0 i) (hc1 : ¬cond0_1 i)
    (x0 : Vec F S1024x1 .f32) (x1 : Vec F S1x1024 .f32) (x2 : Vec F S1024x1024 .i32) (x3 : Vec F S8192x256 .bf16) (xs0 : Vec F S1024x1 .f32) (xs1 : Vec F S1024x1 .f32) (xs2 : Vec F S1024x256 .f32) :
    sout0_B_2 c i arg2 harg2 arg3 harg3 arg4 harg4 arg5 harg5 arg6 harg6 arg7 harg7 arg8 harg8 arg9 harg9 hc0 hc1 x0 x1 x2 x3 xs0 xs1 xs2 = k0_pay2 (k0_pay10 x0 x1 x2 xs0 xs0) (k0_pay11 x0 x1 x2 xs0) (whTile i x3) xs2 := by
  unfold sout0_B_2
  rw [View.read_writes_eq_canon _ _ _ (scover0_B_2 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_run_names
  rw [View.canon_unit_zero (S := S1024x256) hz2]
  simp only [View.readAt_eq_ld, harg2.read_unread, harg3.read_unread, harg4.read_unread, harg5.read_unread, harg7.read_unread, harg8.read_unread, harg9.read_unread, View.ld_unit_zero (S := S1024x1) hz2, View.ld_unit_zero (S := S1x1024) hz2, View.ld_unit_zero (S := S1024x1024) hz2, View.ld_unit_zero (S := S1024x256) hz2, View.readCov_unit_zero (S := S1024x1) _ hz2, View.readCov_unit_zero (S := S1024x256) _ hz2]
  try rfl

/-! ## The last column tile -/

theorem sout0_C_0_eq (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond0_0 i) (hc1 : cond0_1 i)
    (x0 : Vec F S1024x1 .f32) (x1 : Vec F S1x1024 .f32) (x2 : Vec F S1024x1024 .i32) (x3 : Vec F S8192x256 .bf16) (xs0 : Vec F S1024x1 .f32) (xs1 : Vec F S1024x1 .f32) (xs2 : Vec F S1024x256 .f32) :
    sout0_C_0 c i arg2 harg2 arg3 harg3 arg4 harg4 arg5 harg5 arg6 harg6 arg7 harg7 arg8 harg8 arg9 harg9 hc0 hc1 x0 x1 x2 x3 xs0 xs1 xs2 = k0_pay3 (k0_pay9 x0 x1 x2 xs0) := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_run_names
  rw [View.canon_unit_zero (S := S1024x1) hz2]
  simp only [View.readAt_eq_ld, harg2.read_unread, harg3.read_unread, harg4.read_unread, harg5.read_unread, harg7.read_unread, harg8.read_unread, harg9.read_unread, View.ld_unit_zero (S := S1024x1) hz2, View.ld_unit_zero (S := S1x1024) hz2, View.ld_unit_zero (S := S1024x1024) hz2, View.ld_unit_zero (S := S1024x256) hz2, View.readCov_unit_zero (S := S1024x1) _ hz2, View.readCov_unit_zero (S := S1024x256) _ hz2]
  try rfl

theorem sout0_C_1_eq (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond0_0 i) (hc1 : cond0_1 i)
    (x0 : Vec F S1024x1 .f32) (x1 : Vec F S1x1024 .f32) (x2 : Vec F S1024x1024 .i32) (x3 : Vec F S8192x256 .bf16) (xs0 : Vec F S1024x1 .f32) (xs1 : Vec F S1024x1 .f32) (xs2 : Vec F S1024x256 .f32) :
    sout0_C_1 c i arg2 harg2 arg3 harg3 arg4 harg4 arg5 harg5 arg6 harg6 arg7 harg7 arg8 harg8 arg9 harg9 hc0 hc1 x0 x1 x2 x3 xs0 xs1 xs2 = k0_pay1 (k0_pay12 x0 x1 x2 xs0 xs0 xs1) := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_run_names
  rw [View.canon_unit_zero (S := S1024x1) hz2]
  simp only [View.readAt_eq_ld, harg2.read_unread, harg3.read_unread, harg4.read_unread, harg5.read_unread, harg7.read_unread, harg8.read_unread, harg9.read_unread, View.ld_unit_zero (S := S1024x1) hz2, View.ld_unit_zero (S := S1x1024) hz2, View.ld_unit_zero (S := S1024x1024) hz2, View.ld_unit_zero (S := S1024x256) hz2, View.readCov_unit_zero (S := S1024x1) _ hz2, View.readCov_unit_zero (S := S1024x256) _ hz2]
  try rfl

theorem sout0_C_2_eq (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond0_0 i) (hc1 : cond0_1 i)
    (x0 : Vec F S1024x1 .f32) (x1 : Vec F S1x1024 .f32) (x2 : Vec F S1024x1024 .i32) (x3 : Vec F S8192x256 .bf16) (xs0 : Vec F S1024x1 .f32) (xs1 : Vec F S1024x1 .f32) (xs2 : Vec F S1024x256 .f32) :
    sout0_C_2 c i arg2 harg2 arg3 harg3 arg4 harg4 arg5 harg5 arg6 harg6 arg7 harg7 arg8 harg8 arg9 harg9 hc0 hc1 x0 x1 x2 x3 xs0 xs1 xs2 = k0_pay2 (k0_pay10 x0 x1 x2 xs0 xs0) (k0_pay11 x0 x1 x2 xs0) (whTile i x3) xs2 := by
  unfold sout0_C_2
  rw [View.read_writes_eq_canon _ _ _ (scover0_C_2 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_run_names
  rw [View.canon_unit_zero (S := S1024x256) hz2]
  simp only [View.readAt_eq_ld, harg2.read_unread, harg3.read_unread, harg4.read_unread, harg5.read_unread, harg7.read_unread, harg8.read_unread, harg9.read_unread, View.ld_unit_zero (S := S1024x1) hz2, View.ld_unit_zero (S := S1x1024) hz2, View.ld_unit_zero (S := S1024x1024) hz2, View.ld_unit_zero (S := S1024x256) hz2, View.readCov_unit_zero (S := S1024x1) _ hz2, View.readCov_unit_zero (S := S1024x256) _ hz2]
  try rfl

theorem out0_C_4_eq (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond0_0 i) (hc1 : cond0_1 i)
    (x0 : Vec F S1024x1 .f32) (x1 : Vec F S1x1024 .f32) (x2 : Vec F S1024x1024 .i32) (x3 : Vec F S8192x256 .bf16) (xs0 : Vec F S1024x1 .f32) (xs1 : Vec F S1024x1 .f32) (xs2 : Vec F S1024x256 .f32) :
    out0_C_4 c i arg2 harg2 arg3 harg3 arg4 harg4 arg5 harg5 arg6 harg6 arg7 harg7 arg8 harg8 arg9 harg9 hc0 hc1 x0 x1 x2 x3 xs0 xs1 xs2 = k0_pay4 (k0_pay2 (k0_pay10 x0 x1 x2 xs0 xs0) (k0_pay11 x0 x1 x2 xs0) (whTile i x3) xs2) (k0_pay1 (k0_pay12 x0 x1 x2 xs0 xs0 xs1)) := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_run_names
  rw [View.canon_unit_zero (S := S1024x256) hz2]
  simp only [View.readAt_eq_ld, harg2.read_unread, harg3.read_unread, harg4.read_unread, harg5.read_unread, harg7.read_unread, harg8.read_unread, harg9.read_unread, View.ld_unit_zero (S := S1024x1) hz2, View.ld_unit_zero (S := S1x1024) hz2, View.ld_unit_zero (S := S1024x1024) hz2, View.ld_unit_zero (S := S1024x256) hz2, View.readCov_unit_zero (S := S1024x1) _ hz2, View.readCov_unit_zero (S := S1024x256) _ hz2]
  try rfl

end Cert.KernelIdeal.Gen

end
-- ==== Proof.TiledSoftmax.lean ====
/-
  The algebra of a masked softmax aggregated tile by tile, over the extended reals.

  A row of logits σ (all real) is aggregated as  Σ_j e^{σ_j} ω_j / Σ_j e^{σ_j}.  Two ways of computing it:
  * all at once, after subtracting one real shift M from every logit (the quotient does not depend on M);
  * tile by tile, carrying a running shift μ, a running denominator  e^{-μ} · Σ_{seen} e^{σ_j}  and a running
    numerator  e^{-μ} · Σ_{seen} e^{σ_j} ω_j ;  a new tile replaces μ by a larger μ', rescales both by e^{μ-μ'}
    and adds the tile's terms taken at shift μ'.
  Everything here is over abstract finite index types; the statements are the exact shapes the two programs
  compute at one row (and one column of the weights).
-/
import Idealize.ShloMosaic.PureOps.Ideal
import Mathlib.Analysis.SpecialFunctions.Exp
import Mathlib.Algebra.BigOperators.Intervals

noncomputable section

namespace TiledSoftmax

open Idealize.ShloMosaic

/-- A finite sum of reals, read in the extended reals, is the sum of the summands read there. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The running maximum of finitely many reals, started from a value that is not +∞, over a nonempty index set,
    is a real. -/
theorem fold_max_real {ι : Type*} [Fintype ι] [Nonempty ι] (g : ι → ℝ) (b : EReal) (hb : b ≠ ⊤) :
    ∃ ρ : ℝ, (Finset.univ : Finset ι).fold max b (fun k => (g k : EReal)) = (ρ : EReal) := by
  classical
  have htop : (Finset.univ : Finset ι).fold max b (fun k => (g k : EReal)) ≠ ⊤ := by
    apply ne_of_lt
    rw [Finset.fold_max_lt]
    exact ⟨lt_top_iff_ne_top.mpr hb, fun x _ => EReal.coe_lt_top _⟩
  have hbot : (Finset.univ : Finset ι).fold max b (fun k => (g k : EReal)) ≠ ⊥ := by
    obtain ⟨k⟩ := ‹Nonempty ι›
    have hk : (g k : EReal) ≤ (Finset.univ : Finset ι).fold max b (fun k => (g k : EReal)) := by
      rw [Finset.le_fold_max]; exact Or.inr ⟨k, Finset.mem_univ _, le_refl _⟩
    exact ne_of_gt (lt_of_lt_of_le (EReal.bot_lt_coe _) hk)
  exact ⟨_, (EReal.coe_toReal htop hbot).symm⟩

/-- The maximum of two reals read in the extended reals. -/
theorem max_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- One tile's update of the running denominator: rescale by e^{μ-μ'} and add the tile's terms at shift μ'. -/
theorem denom_step {κ : Type*} [Fintype κ] (μ μ' P : ℝ) (σ : κ → ℝ) :
    Ideal.exp ((μ : EReal) - (μ' : EReal)) * ((Real.exp (-μ) * P : ℝ) : EReal)
        + ∑ k, Ideal.exp ((σ k : EReal) - (μ' : EReal))
      = ((Real.exp (-μ') * (P + ∑ k, Real.exp (σ k)) : ℝ) : EReal) := by
  have h1 : Real.exp (μ - μ') * Real.exp (-μ) = Real.exp (-μ') := by
    rw [← Real.exp_add]; congr 1; ring
  have h2 : ∀ k, Real.exp (σ k - μ') = Real.exp (-μ') * Real.exp (σ k) := fun k => by
    rw [← Real.exp_add]; congr 1; ring
  simp only [← EReal.coe_sub, Ideal.exp_coe, ← EReal.coe_mul]
  rw [← coe_sum, ← EReal.coe_add]
  congr 1
  simp only [h2]
  rw [← Finset.mul_sum, mul_add, ← mul_assoc, h1]

/-- One tile's update of the running numerator, the tile's terms weighted by ω. -/
theorem numer_step {κ : Type*} [Fintype κ] (μ μ' Q : ℝ) (σ ω : κ → ℝ) :
    Ideal.exp ((μ : EReal) - (μ' : EReal)) * ((Real.exp (-μ) * Q : ℝ) : EReal)
        + ∑ k, Ideal.exp ((σ k : EReal) - (μ' : EReal)) * (ω k : EReal)
      = ((Real.exp (-μ') * (Q + ∑ k, Real.exp (σ k) * ω k) : ℝ) : EReal) := by
  have h1 : Real.exp (μ - μ') * Real.exp (-μ) = Real.exp (-μ') := by
    rw [← Real.exp_add]; congr 1; ring
  have h2 : ∀ k, Real.exp (σ k - μ') * ω k = Real.exp (-μ') * (Real.exp (σ k) * ω k) := fun k => by
    rw [← mul_assoc, ← Real.exp_add]; congr 2; ring
  simp only [← EReal.coe_sub, Ideal.exp_coe, ← EReal.coe_mul]
  rw [← coe_sum, ← EReal.coe_add]
  congr 1
  simp only [h2]
  rw [← Finset.mul_sum, mul_add, ← mul_assoc, h1]

/-- The first tile: the running shift starts at −∞ and both accumulators at 0, so the rescaling factor is
    e^{−∞} = 0 and the tile's terms are all that is left. -/
theorem denom_first {κ : Type*} [Fintype κ] (μ' : ℝ) (σ : κ → ℝ) :
    Ideal.exp ((⊥ : EReal) - (μ' : EReal)) * (0 : EReal) + ∑ k, Ideal.exp ((σ k : EReal) - (μ' : EReal))
      = ((Real.exp (-μ') * (0 + ∑ k, Real.exp (σ k)) : ℝ) : EReal) := by
  have h2 : ∀ k, Real.exp (σ k - μ') = Real.exp (-μ') * Real.exp (σ k) := fun k => by
    rw [← Real.exp_add]; congr 1; ring
  rw [mul_zero, zero_add, zero_add]
  simp only [← EReal.coe_sub, Ideal.exp_coe]
  rw [← coe_sum]
  congr 1
  simp only [h2]
  rw [← Finset.mul_sum]

theorem numer_first {κ : Type*} [Fintype κ] (μ' : ℝ) (σ ω : κ → ℝ) :
    Ideal.exp ((⊥ : EReal) - (μ' : EReal)) * (0 : EReal) + ∑ k, Ideal.exp ((σ k : EReal) - (μ' : EReal)) * (ω k : EReal)
      = ((Real.exp (-μ') * (0 + ∑ k, Real.exp (σ k) * ω k) : ℝ) : EReal) := by
  have h2 : ∀ k, Real.exp (σ k - μ') * ω k = Real.exp (-μ') * (Real.exp (σ k) * ω k) := fun k => by
    rw [← mul_assoc, ← Real.exp_add]; congr 2; ring
  rw [mul_zero, zero_add, zero_add]
  simp only [← EReal.coe_sub, Ideal.exp_coe, ← EReal.coe_mul]
  rw [← coe_sum]
  congr 1
  simp only [h2]
  rw [← Finset.mul_sum]

/-- At the end the common factor e^{-μ} cancels: the quotient of the two accumulators is the aggregate. -/
theorem quotient_final (μ P Q : ℝ) (hP : 0 < P) :
    Ideal.div ((Real.exp (-μ) * Q : ℝ) : EReal) ((Real.exp (-μ) * P : ℝ) : EReal) = ((Q / P : ℝ) : EReal) := by
  have hne : Real.exp (-μ) * P ≠ 0 := mul_ne_zero (Real.exp_ne_zero _) (ne_of_gt hP)
  rw [Ideal.div_coe hne, ← EReal.coe_mul]
  congr 1
  field_simp

/-- The all-at-once form: each term e^{σ_j - M} divided by the row's total, times its weight, summed. -/
theorem normalized_sum {ι : Type*} [Fintype ι] (M : ℝ) (σ ω : ι → ℝ) (hP : 0 < ∑ j, Real.exp (σ j)) :
    ∑ j, Ideal.div (Ideal.exp ((σ j : EReal) - (M : EReal))) ((0 : EReal) + ∑ i, Ideal.exp ((σ i : EReal) - (M : EReal))) * (ω j : EReal)
      = (((∑ j, Real.exp (σ j) * ω j) / (∑ j, Real.exp (σ j)) : ℝ) : EReal) := by
  have h2 : ∀ k, Real.exp (σ k - M) = Real.exp (-M) * Real.exp (σ k) := fun k => by
    rw [← Real.exp_add]; congr 1; ring
  have hS : (0 : EReal) + ∑ i, Ideal.exp ((σ i : EReal) - (M : EReal)) = ((Real.exp (-M) * ∑ j, Real.exp (σ j) : ℝ) : EReal) := by
    rw [zero_add]
    simp only [← EReal.coe_sub, Ideal.exp_coe]
    rw [← coe_sum]; congr 1; simp only [h2]; rw [← Finset.mul_sum]
  have hne : Real.exp (-M) * ∑ j, Real.exp (σ j) ≠ 0 := mul_ne_zero (Real.exp_ne_zero _) (ne_of_gt hP)
  rw [hS]
  simp only [Ideal.div_coe hne, ← EReal.coe_sub, Ideal.exp_coe, ← EReal.coe_mul]
  rw [← coe_sum]
  congr 1
  simp only [h2]
  rw [Finset.sum_div]
  refine Finset.sum_congr rfl fun j _ => ?_
  field_simp

/-- A sum of exponentials over a nonempty index set is positive. -/
theorem sum_exp_pos {ι : Type*} [Fintype ι] [Nonempty ι] (σ : ι → ℝ) : 0 < ∑ j, Real.exp (σ j) :=
  Finset.sum_pos (fun j _ => Real.exp_pos _) Finset.univ_nonempty

end TiledSoftmax

end
-- ==== Proof.Spec.lean ====
/-
  What the graph-attention layer computes, as one function of its five argument arrays, and the state a row's
  tile-by-tile aggregation passes through.

  With  Wh = X · W,  f_src = Wh · a_src,  f_dst = Wh · a_dst,  the logit of the pair (r, j) is
  leaky_relu(f_src r + f_dst j) where adj r j > 0 and the finite stand-in −9·10¹⁵ elsewhere; row r of the result is
  elu of the softmax-weighted average of the rows of Wh,
      elu( Σ_j e^{σ_rj} Wh_jd / Σ_j e^{σ_rj} ).
  `logit` and `elu` are written with the very comparisons and selects both programs apply to an element, so that an
  element of either program's arrays is one of them by unfolding alone.
-/
import Idealize.ShloMosaic.PureOps.Ideal
import Idealize.ShloMosaic.PureOps.Ideal.Laws
import Idealize.ShloMosaic.Lib.ValueIdx
import proofs.«430110_j20169166422637_3_alg».proof.Proof.TiledSoftmax

noncomputable section

namespace Attn

open Idealize.ShloMosaic Idealize.ShloMosaic.ValueIdx

abbrev SX : Shape := ⟨2, ![8192, 256]⟩
abbrev SAdj : Shape := ⟨2, ![8192, 8192]⟩
abbrev SW : Shape := ⟨2, ![256, 256]⟩
abbrev SA : Shape := ⟨2, ![256, 1]⟩

/-- Row r, column d of Wh = X · W. -/
def proj (X : FVec Ideal SX .f32) (W : FVec Ideal SW .f32) (r : Fin 8192) (d : Fin 256) : EReal :=
  ∑ k : Fin 256, X (ix2 r k) * W (ix2 k d)

/-- Row r of Wh · a, for an attention vector a. -/
def score (X : FVec Ideal SX .f32) (W : FVec Ideal SW .f32) (a : FVec Ideal SA .f32) (r : Fin 8192) : EReal :=
  ∑ d : Fin 256, proj X W r d * a (ix2 d 0)

/-- The masked logit of one pair from its source score, its destination score and its adjacency word:
    leaky_relu with slope f32(0.2) of the sum where the word is positive (signed), −9·10¹⁵ (as an f32) elsewhere. -/
def logit (a b : EReal) (w : BitVec 32) : EReal :=
  Scalar.select (IntOp.cmpi .sgt w 0#32)
    (Scalar.select (FloatOps.cmpf .oge (a + b) (Ideal.ofBits .f32 0x00000000#32)) (a + b)
      (Ideal.ofBits .f32 0x3E4CCCCD#32 * (a + b)))
    (Ideal.ofBits .f32 0xD9FFCB9E#32)

/-- elu, as the kernel applies it to an element: h where h > 0, e^h − 1 elsewhere. -/
def elu (h : EReal) : EReal :=
  Scalar.select (FloatOps.cmpf .ogt h (Ideal.ofBits .f32 0x00000000#32)) h (Ideal.exp h - Ideal.ofBits .f32 0x3F800000#32)

/-- elu, as the reference spells it: the exponential is taken of the argument clamped to 0 where it is positive, through
    exp(·) − 1, and multiplied by α = 1. The same function. -/
theorem elu_safe (h : EReal) :
    Scalar.select (FloatOps.cmpf .ogt h (Ideal.ofBits .f32 0x00000000#32)) h
      (Ideal.ofBits .f32 0x3F800000#32 *
        (Ideal.exp (Scalar.select (FloatOps.cmpf .ogt h (Ideal.ofBits .f32 0x00000000#32)) (Ideal.ofBits .f32 0x00000000#32) h) - 1))
      = elu h := by
  have h1 : Ideal.ofBits .f32 0x3F800000#32 = 1 := by
    simp [Ideal.ofBits, Ideal.ieee, -EReal.coe_mul]; norm_num
  unfold elu
  rw [h1, one_mul]
  by_cases hc : FloatOps.cmpf .ogt h (Ideal.ofBits .f32 0x00000000#32) = 1#1
  · rw [hc, select_one, select_one]
  · rw [eq_zero_of_ne_one hc, select_zero, select_zero, select_zero]

/-- The literals' values that matter: the running maximum starts at −∞. -/
theorem ofBits_neg_inf : Ideal.ofBits .f32 0xFF800000#32 = ⊥ := by
  simp [Ideal.ofBits, Ideal.ieee]

/-- A float pattern whose exponent field is not all ones denotes a real number. -/
theorem ieee_real (e m : Nat) {w : Nat} (b : BitVec w) (h : (b.extractLsb' m e).toNat ≠ 2 ^ e - 1) :
    ∃ r : ℝ, Ideal.ieee e m b = (r : EReal) := by
  unfold Ideal.ieee
  dsimp only
  rw [if_neg h]
  split_ifs <;> exact ⟨_, rfl⟩

/-- A masked logit of real scores is real: it is their sum, 0.2 times their sum, or −9·10¹⁵. -/
theorem logit_real (a b : ℝ) (w : BitVec 32) : ∃ σ : ℝ, logit (a : EReal) (b : EReal) w = (σ : EReal) := by
  have hs : ∃ r : ℝ, Ideal.ofBits .f32 0x3E4CCCCD#32 = (r : EReal) :=
    show ∃ r : ℝ, Ideal.ieee 8 23 (0x3E4CCCCD#32 : BitVec 32) = (r : EReal) from ieee_real 8 23 _ (by decide)
  have hn : ∃ r : ℝ, Ideal.ofBits .f32 0xD9FFCB9E#32 = (r : EReal) :=
    show ∃ r : ℝ, Ideal.ieee 8 23 (0xD9FFCB9E#32 : BitVec 32) = (r : EReal) from ieee_real 8 23 _ (by decide)
  obtain ⟨s, hs⟩ := hs
  obtain ⟨n, hn⟩ := hn
  unfold logit Scalar.select
  split_ifs
  · exact ⟨a + b, (EReal.coe_add a b).symm⟩
  · exact ⟨s * (a + b), by rw [hs, ← EReal.coe_add, ← EReal.coe_mul]⟩
  · exact ⟨n, hn⟩

/-- Every entry of the four float arguments is a real number. -/
structure AllReal (X : FVec Ideal SX .f32) (W : FVec Ideal SW .f32) (asrc adst : FVec Ideal SA .f32) : Prop where
  x : ∀ i, ∃ r : ℝ, X i = (r : EReal)
  w : ∀ i, ∃ r : ℝ, W i = (r : EReal)
  asrc : ∀ i, ∃ r : ℝ, asrc i = (r : EReal)
  adst : ∀ i, ∃ r : ℝ, adst i = (r : EReal)

/-- A finite sum of products of reals is real. -/
theorem sum_mul_real {ι : Type*} [Fintype ι] (f g : ι → EReal) (hf : ∀ i, ∃ r : ℝ, f i = (r : EReal))
    (hg : ∀ i, ∃ r : ℝ, g i = (r : EReal)) : ∃ r : ℝ, ∑ i, f i * g i = (r : EReal) := by
  choose a ha using hf
  choose b hb using hg
  refine ⟨∑ i, a i * b i, ?_⟩
  rw [TiledSoftmax.coe_sum]
  exact Finset.sum_congr rfl fun i _ => by rw [ha, hb, EReal.coe_mul]

theorem proj_real {X W} {asrc adst} (h : AllReal X W asrc adst) (r : Fin 8192) (d : Fin 256) :
    ∃ x : ℝ, proj X W r d = (x : EReal) :=
  sum_mul_real _ _ (fun k => h.x _) (fun k => h.w _)

theorem score_src_real {X W} {asrc adst} (h : AllReal X W asrc adst) (r : Fin 8192) :
    ∃ x : ℝ, score X W asrc r = (x : EReal) :=
  sum_mul_real _ _ (fun d => proj_real h r d) (fun d => h.asrc _)

theorem score_dst_real {X W} {asrc adst} (h : AllReal X W asrc adst) (r : Fin 8192) :
    ∃ x : ℝ, score X W adst r = (x : EReal) :=
  sum_mul_real _ _ (fun d => proj_real h r d) (fun d => h.adst _)

/-- The logit of the pair (r, j) as an extended real, -/
def pairLogit (X : FVec Ideal SX .f32) (adj : IVec SAdj 32) (W : FVec Ideal SW .f32) (asrc adst : FVec Ideal SA .f32)
    (r j : Fin 8192) : EReal :=
  logit (score X W asrc r) (score X W adst j) (adj (ix2 r j))

/-- and, the arguments being real, as the real it is (junk 0 past the last column, so that a row is a sequence). -/
def sigma (X : FVec Ideal SX .f32) (adj : IVec SAdj 32) (W : FVec Ideal SW .f32) (asrc adst : FVec Ideal SA .f32)
    (r : Fin 8192) (j : ℕ) : ℝ :=
  if h : j < 8192 then (pairLogit X adj W asrc adst r ⟨j, h⟩).toReal else 0

/-- Wh as reals (junk 0 past the last row). -/
def omega (X : FVec Ideal SX .f32) (W : FVec Ideal SW .f32) (j : ℕ) (d : Fin 256) : ℝ :=
  if h : j < 8192 then (proj X W ⟨j, h⟩ d).toReal else 0

theorem pairLogit_eq {X adj W asrc adst} (h : AllReal X W asrc adst) (r j : Fin 8192) :
    pairLogit X adj W asrc adst r j = (sigma X adj W asrc adst r j.val : EReal) := by
  obtain ⟨a, ha⟩ := score_src_real h r
  obtain ⟨b, hb⟩ := score_dst_real h j
  obtain ⟨s, hs⟩ := logit_real a b (adj (ix2 r j))
  unfold sigma pairLogit
  rw [dif_pos j.isLt, ha, hb, hs, EReal.toReal_coe]

theorem proj_eq {X W} {asrc adst} (h : AllReal X W asrc adst) (j : Fin 8192) (d : Fin 256) :
    proj X W j d = (omega X W j.val d : EReal) := by
  obtain ⟨x, hx⟩ := proj_real h j d
  unfold omega
  rw [dif_pos j.isLt, hx, EReal.toReal_coe]

/-- THE RESULT: row r, column d is elu of the softmax-weighted average of column d of Wh over row r's logits. -/
def G (X : FVec Ideal SX .f32) (adj : IVec SAdj 32) (W : FVec Ideal SW .f32) (asrc adst : FVec Ideal SA .f32) :
    FVec Ideal SX .f32 := fun i =>
  elu (((∑ j ∈ Finset.range 8192, Real.exp (sigma X adj W asrc adst (i 0) j) * omega X W j (i 1))
        / (∑ j ∈ Finset.range 8192, Real.exp (sigma X adj W asrc adst (i 0) j)) : ℝ) : EReal)

/-! ## A row's state while its tiles are aggregated -/

/-- After `cnt` columns of a row with logits σ and weights ω: the running shift is some real μ, the running
    denominator e^{-μ} Σ_{j<cnt} e^{σ_j}, the running numerator of column d e^{-μ} Σ_{j<cnt} e^{σ_j} ω_jd. -/
def RowInv (σ : ℕ → ℝ) (ω : ℕ → Fin 256 → ℝ) (cnt : ℕ) (mv lv : EReal) (av : Fin 256 → EReal) : Prop :=
  ∃ μ : ℝ, mv = (μ : EReal)
    ∧ lv = ((Real.exp (-μ) * ∑ j ∈ Finset.range cnt, Real.exp (σ j) : ℝ) : EReal)
    ∧ ∀ d, av d = ((Real.exp (-μ) * ∑ j ∈ Finset.range cnt, Real.exp (σ j) * ω j d : ℝ) : EReal)

private theorem sum_tile (f : ℕ → ℝ) (cnt : ℕ) :
    ∑ j ∈ Finset.range (cnt + 1024), f j = (∑ j ∈ Finset.range cnt, f j) + ∑ k : Fin 1024, f (cnt + k.val) := by
  rw [Finset.sum_range_add, Fin.sum_univ_eq_sum_range (fun k => f (cnt + k)) 1024]

/-- A tile of 1024 further columns, whose logits s and weights w are the row's next ones: the new shift is the larger of
    the old one and the tile's maximum, both accumulators are rescaled by e^{old − new} and take the tile's terms. -/
theorem RowInv.step {σ : ℕ → ℝ} {ω : ℕ → Fin 256 → ℝ} {cnt : ℕ} {mv lv : EReal} {av : Fin 256 → EReal}
    (h : RowInv σ ω cnt mv lv av) (s : Fin 1024 → EReal) (w : Fin 1024 → Fin 256 → EReal)
    (hs : ∀ k, s k = (σ (cnt + k.val) : EReal)) (hw : ∀ k d, w k d = (ω (cnt + k.val) d : EReal)) :
    RowInv σ ω (cnt + 1024) (max mv (Finset.univ.fold max ⊥ s))
      (Ideal.exp (mv - max mv (Finset.univ.fold max ⊥ s)) * lv + ∑ k, Ideal.exp (s k - max mv (Finset.univ.fold max ⊥ s)))
      (fun d => Ideal.exp (mv - max mv (Finset.univ.fold max ⊥ s)) * av d
                  + ∑ k, Ideal.exp (s k - max mv (Finset.univ.fold max ⊥ s)) * w k d) := by
  obtain ⟨μ, hm, hl, ha⟩ := h
  have hfun : s = fun k => ((σ (cnt + k.val) : ℝ) : EReal) := funext hs
  obtain ⟨ρ, hρ⟩ := TiledSoftmax.fold_max_real (fun k : Fin 1024 => σ (cnt + k.val)) ⊥ bot_ne_top
  have hfold : (Finset.univ : Finset (Fin 1024)).fold max ⊥ s = (ρ : EReal) := by rw [hfun]; exact hρ
  rw [hfold, hm, TiledSoftmax.max_coe]
  refine ⟨max μ ρ, rfl, ?_, fun d => ?_⟩
  · simp only [hs]
    rw [hl, TiledSoftmax.denom_step μ (max μ ρ) _ (fun k : Fin 1024 => σ (cnt + k.val)), sum_tile]
  · simp only [hs, hw, ha d]
    rw [TiledSoftmax.numer_step μ (max μ ρ) _ (fun k : Fin 1024 => σ (cnt + k.val)) (fun k : Fin 1024 => ω (cnt + k.val) d),
      sum_tile (fun j => Real.exp (σ j) * ω j d)]

/-- The first tile, from the reset state: shift −∞, both accumulators 0. -/
theorem RowInv.first {σ : ℕ → ℝ} {ω : ℕ → Fin 256 → ℝ} (s : Fin 1024 → EReal) (w : Fin 1024 → Fin 256 → EReal)
    (hs : ∀ k, s k = (σ k.val : EReal)) (hw : ∀ k d, w k d = (ω k.val d : EReal)) :
    RowInv σ ω 1024 (max ⊥ (Finset.univ.fold max ⊥ s))
      (Ideal.exp (⊥ - max ⊥ (Finset.univ.fold max ⊥ s)) * 0 + ∑ k, Ideal.exp (s k - max ⊥ (Finset.univ.fold max ⊥ s)))
      (fun d => Ideal.exp (⊥ - max ⊥ (Finset.univ.fold max ⊥ s)) * 0
                  + ∑ k, Ideal.exp (s k - max ⊥ (Finset.univ.fold max ⊥ s)) * w k d) := by
  have hfun : s = fun k => ((σ k.val : ℝ) : EReal) := funext hs
  obtain ⟨ρ, hρ⟩ := TiledSoftmax.fold_max_real (fun k : Fin 1024 => σ k.val) ⊥ bot_ne_top
  have hfold : (Finset.univ : Finset (Fin 1024)).fold max ⊥ s = (ρ : EReal) := by rw [hfun]; exact hρ
  rw [hfold, max_eq_right bot_le]
  refine ⟨ρ, rfl, ?_, fun d => ?_⟩
  · simp only [hs]
    rw [TiledSoftmax.denom_first ρ (fun k : Fin 1024 => σ k.val), Fin.sum_univ_eq_sum_range (fun k => Real.exp (σ k)) 1024, zero_add]
  · simp only [hs, hw]
    rw [TiledSoftmax.numer_first ρ (fun k : Fin 1024 => σ k.val) (fun k : Fin 1024 => ω k.val d),
      Fin.sum_univ_eq_sum_range (fun k => Real.exp (σ k) * ω k d) 1024, zero_add]

/-- After all 8192 columns the quotient of the accumulators is the softmax-weighted average. -/
theorem RowInv.quotient {σ : ℕ → ℝ} {ω : ℕ → Fin 256 → ℝ} {mv lv : EReal} {av : Fin 256 → EReal}
    (h : RowInv σ ω 8192 mv lv av) (d : Fin 256) :
    Ideal.div (av d) lv
      = (((∑ j ∈ Finset.range 8192, Real.exp (σ j) * ω j d) / (∑ j ∈ Finset.range 8192, Real.exp (σ j)) : ℝ) : EReal) := by
  obtain ⟨μ, _, hl, ha⟩ := h
  rw [hl, ha d]
  exact TiledSoftmax.quotient_final μ _ _
    (Finset.sum_pos (fun j _ => Real.exp_pos _) (Finset.nonempty_range_iff.mpr (by norm_num)))

end Attn

end
-- ==== Proof.Payloads.lean ====
import proofs.«430110_j20169166422637_3_alg».proof.Proof.Gen.KernelIdeal.Skeleton
import proofs.«430110_j20169166422637_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-! ## Two layout readings the tile step needs -/

/-- A column [a, 1] broadcast to [a, b] reads, at (p, k), the column's entry of row p. -/
private theorem bcast_col {α : Type} {a b : ℕ} (v : (⟨2, ![a, 1]⟩ : Shape).Idx → α)
    (h : (⟨2, ![a, 1]⟩ : Shape).Broadcasts ⟨2, ![a, b]⟩) (p : Fin a) (k : Fin b) :
    broadcastTo ⟨2, ![a, b]⟩ v h (ix2 p k) = v (ix2 p (0 : Fin 1)) := by
  refine broadcastTo_apply v h (ix2 p k) (ix2 p (0 : Fin 1)) fun ax => ?_
  match ax with
  | ⟨0, _⟩ =>
    show p.val = if a = 1 then 0 else p.val
    split
    · have := p.isLt; omega
    · rfl
  | ⟨1, _⟩ => rfl

/-- A vector [a] viewed as a column [a, 1] reads, at (p, u), entry p: both sit at row-major position p. -/
private theorem cast_col {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The index over row p of the tile with column k put back on the reduced axis is (p, k). -/
private theorem lift_row (p k : Fin 1024) : reduces_S1024x1024_S1024.lift (ix1 p) k = ix2 p k :=
  funext fun c => Fin.ext (by
    match c with
    | ⟨0, _⟩ => rfl
    | ⟨1, _⟩ => rfl)

/-! ## The scalar expressions of the tile step, over arbitrary vectors

Each is the element, at one index, of a chain of pointwise operations on arbitrary vectors. -/

/-- The masked leaky-relu chain at an element is the masked logit of the two summands and the adjacency word there. -/
private theorem logit_read (u v : FVec Ideal S1024x1024 .f32) (w : IVec S1024x1024 32) (i : S1024x1024.Idx) :
    select (cmpi .sgt w (broadcast S1024x1024 0#32))
        (select (cmpf .oge (addf u v) (broadcast S1024x1024 (Scalar.ofBits (F := Ideal) .f32 0x00000000#32))) (addf u v)
          (mulf (broadcast S1024x1024 (Scalar.ofBits (F := Ideal) .f32 0x3E4CCCCD#32)) (addf u v)))
        (broadcast S1024x1024 (Scalar.ofBits (F := Ideal) .f32 0xD9FFCB9E#32)) i
      = Attn.logit (u i) (v i) (w i) := rfl

/-- The select between h and e^h − 1 on h > 0 at an element is elu of the element. -/
private theorem elu_read (q : FVec Ideal S1024x256 .f32) (i : S1024x256.Idx) :
    select (cmpf .ogt q (broadcast S1024x256 (Scalar.ofBits (F := Ideal) .f32 0x00000000#32))) q
        (subf (exp q) (broadcast S1024x256 (Scalar.ofBits (F := Ideal) .f32 0x3F800000#32))) i
      = Attn.elu (q i) := rfl

/-- The exponential of a difference at an element. -/
private theorem exp_sub_read {s : Shape} (u v : FVec Ideal s .f32) (i : s.Idx) :
    exp (subf u v) i = Ideal.exp (u i - v i) := rfl

/-! ## The reset values and the identity casts -/

theorem pay1_eq (v : FVec Ideal S1024x1 .f32) : k0_pay1 (F := Ideal) v = v := shapeCast_self v _

theorem pay3_eq (v : FVec Ideal S1024x1 .f32) : k0_pay3 (F := Ideal) v = v := shapeCast_self v _

/-- The running maximum is reset to −∞. -/
theorem pay5_apply (i : S1024x1.Idx) : k0_pay5 (F := Ideal) i = ⊥ := by
  show shapeCast S1024x1 (broadcast S1024x1 (Ideal.ofBits .f32 0xFF800000#32)) shapeCasts_S1024x1_S1024x1 i = ⊥
  rw [shapeCast_self]
  exact Attn.ofBits_neg_inf

/-- The running denominator is reset to 0. -/
theorem pay6_apply (i : S1024x1.Idx) : k0_pay6 (F := Ideal) i = 0 := by
  show shapeCast S1024x1 (broadcast S1024x1 (Ideal.ofBits .f32 0x00000000#32)) shapeCasts_S1024x1_S1024x1 i = 0
  rw [shapeCast_self]
  exact Ideal.ofBits_zero_f32

/-- The running numerator is reset to 0. -/
theorem pay7_apply (i : S1024x256.Idx) : k0_pay7 (F := Ideal) i = 0 := by
  show shapeCast S1024x256 (broadcast S1024x256 (Ideal.ofBits .f32 0x00000000#32)) shapeCasts_S1024x256_S1024x256 i = 0
  rw [shapeCast_self]
  exact Ideal.ofBits_zero_f32

/-! ## The tile of masked logits -/

theorem logits_apply (x0 : Vec Ideal S1024x1 .f32) (x1 : Vec Ideal S1x1024 .f32) (x2 : Vec Ideal S1024x1024 .i32)
    (p k : Fin 1024) :
    k0_pay8 (F := Ideal) x0 x1 x2 (ix2 p k) = Attn.logit (x0 (ix2 p 0)) (x1 (ix2 0 k)) (x2 (ix2 p k)) := by
  have e0 : broadcastTo S1024x1024 (shapeCast S1024x1 x0 shapeCasts_S1024x1_S1024x1) broadcasts_S1024x1_S1024x1024 (ix2 p k)
      = x0 (ix2 p 0) := by
    rw [shapeCast_self]; exact bcast_col x0 _ p k
  have e1 : broadcastTo S1024x1024 (shapeCast S1x1024 x1 shapeCasts_S1x1024_S1x1024) broadcasts_S1x1024_S1024x1024 (ix2 p k)
      = x1 (ix2 0 k) := by
    rw [shapeCast_self]; exact broadcastTo_1b_ab_apply x1 _ p k
  refine (logit_read
    (broadcastTo S1024x1024 (shapeCast S1024x1 x0 shapeCasts_S1024x1_S1024x1) broadcasts_S1024x1_S1024x1024)
    (broadcastTo S1024x1024 (shapeCast S1x1024 x1 shapeCasts_S1x1024_S1x1024) broadcasts_S1x1024_S1024x1024)
    x2 (ix2 p k)).trans ?_
  rw [e0, e1]

/-! ## The running maximum, the rescaling factor and the weights -/

/-- A row's maximum over the tile, joined with the running maximum: the reduction over the column axis read as the fold
    of max from −∞ over the 1024 columns. -/
private theorem rowmax_read (src : FVec Ideal S1024x1024 .f32) (xm : FVec Ideal S1024x1 .f32) (p : Fin 1024) :
    maximumf xm (shapeCast S1024x1 (multiReduction (F := Ideal) .maximumf [1] S1024 src 0xFF800000#32
        reduces_S1024x1024_S1024 (.inl rfl) rfl) shapeCasts_S1024_S1024x1) (ix2 p 0)
      = max (xm (ix2 p 0)) ((Finset.univ : Finset (Fin 1024)).fold max ⊥ (fun k => src (ix2 p k))) := by
  refine (maximumf_apply xm _ (ix2 p 0)).trans ?_
  refine congrArg (max (xm (ix2 p 0))) ?_
  refine (cast_col _ _ p 0).trans ?_
  refine (Ideal.multiReduction_maximumf_single src 0xFF800000#32 reduces_S1024x1024_S1024 (.inl rfl) rfl (ix1 p)).trans ?_
  refine (congrArg (fun b => (Finset.univ : Finset (Fin 1024)).fold max b (src ∘ reduces_S1024x1024_S1024.lift (ix1 p)))
    Attn.ofBits_neg_inf).trans ?_
  exact Finset.fold_congr fun k _ => congrArg src (lift_row p k)

theorem newmax_apply (x0 : Vec Ideal S1024x1 .f32) (x1 : Vec Ideal S1x1024 .f32) (x2 : Vec Ideal S1024x1024 .i32)
    (xm : Vec Ideal S1024x1 .f32) (p : Fin 1024) :
    k0_pay9 (F := Ideal) x0 x1 x2 xm (ix2 p 0)
      = max (xm (ix2 p 0)) ((Finset.univ : Finset (Fin 1024)).fold max ⊥ (fun k => k0_pay8 (F := Ideal) x0 x1 x2 (ix2 p k))) :=
  rowmax_read (k0_pay8 (F := Ideal) x0 x1 x2) xm p

theorem rescale_apply (x0 : Vec Ideal S1024x1 .f32) (x1 : Vec Ideal S1x1024 .f32) (x2 : Vec Ideal S1024x1024 .i32)
    (xm xm' : Vec Ideal S1024x1 .f32) (p : Fin 1024) :
    k0_pay10 (F := Ideal) x0 x1 x2 xm xm' (ix2 p 0)
      = Ideal.exp (xm' (ix2 p 0) - k0_pay9 (F := Ideal) x0 x1 x2 xm (ix2 p 0)) :=
  exp_sub_read xm' (k0_pay9 (F := Ideal) x0 x1 x2 xm) (ix2 p 0)

theorem weights_apply (x0 : Vec Ideal S1024x1 .f32) (x1 : Vec Ideal S1x1024 .f32) (x2 : Vec Ideal S1024x1024 .i32)
    (xm : Vec Ideal S1024x1 .f32) (p k : Fin 1024) :
    k0_pay11 (F := Ideal) x0 x1 x2 xm (ix2 p k)
      = Ideal.exp (k0_pay8 (F := Ideal) x0 x1 x2 (ix2 p k) - k0_pay9 (F := Ideal) x0 x1 x2 xm (ix2 p 0)) :=
  (exp_sub_read (k0_pay8 (F := Ideal) x0 x1 x2)
      (broadcastTo S1024x1024 (k0_pay9 (F := Ideal) x0 x1 x2 xm) broadcasts_S1024x1_S1024x1024) (ix2 p k)).trans
    (congrArg (fun z => Ideal.exp (k0_pay8 (F := Ideal) x0 x1 x2 (ix2 p k) - z))
      (bcast_col (k0_pay9 (F := Ideal) x0 x1 x2 xm) broadcasts_S1024x1_S1024x1024 p k))

/-! ## The running denominator -/

/-- A product of two columns plus a row's sum over the tile: the reduction over the column axis read as the sum over the
    1024 columns. -/
private theorem rowsum_read (src : FVec Ideal S1024x1024 .f32) (c1 c2 : FVec Ideal S1024x1 .f32) (p : Fin 1024) :
    addf (mulf c1 c2) (shapeCast S1024x1 (multiReduction (F := Ideal) .add [1] S1024 src 0x00000000#32
        reduces_S1024x1024_S1024 (.inl rfl) rfl) shapeCasts_S1024_S1024x1) (ix2 p 0)
      = c1 (ix2 p 0) * c2 (ix2 p 0) + ∑ k : Fin 1024, src (ix2 p k) := by
  refine (addf_apply (mulf c1 c2) _ (ix2 p 0)).trans ?_
  refine congrArg₂ (· + ·) (mulf_apply c1 c2 (ix2 p 0)) ?_
  refine (cast_col _ _ p 0).trans ?_
  refine (Ideal.multiReduction_add_single src 0x00000000#32 reduces_S1024x1024_S1024 (.inl rfl) rfl (ix1 p)).trans ?_
  exact Finset.sum_congr rfl fun k _ => congrArg src (lift_row p k)

theorem denom_apply (x0 : Vec Ideal S1024x1 .f32) (x1 : Vec Ideal S1x1024 .f32) (x2 : Vec Ideal S1024x1024 .i32)
    (xm xm' xl : Vec Ideal S1024x1 .f32) (p : Fin 1024) :
    k0_pay12 (F := Ideal) x0 x1 x2 xm xm' xl (ix2 p 0)
      = k0_pay10 (F := Ideal) x0 x1 x2 xm xm' (ix2 p 0) * xl (ix2 p 0)
        + ∑ k : Fin 1024, k0_pay11 (F := Ideal) x0 x1 x2 xm (ix2 p k) :=
  rowsum_read (k0_pay11 (F := Ideal) x0 x1 x2 xm) (k0_pay10 (F := Ideal) x0 x1 x2 xm xm') xl p

/-! ## The running numerator: a product over the tile's 1024 columns -/

/-- The left operand is read at row (i 0) of the output index … -/
private theorem lhs_numer_0 (i : S1024x256.Idx) (q : dot_S1024x1024_S1024x256_S1024x256_1_0_0_1_n_n.contr.Idx) :
    (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide),
    dif_pos (show (0 : Fin S1024x1024.rank) ∈ dot_S1024x1024_S1024x256_S1024x256_1_0_0_1_n_n.lhsNonContracting by decide)]
  rfl

/-- … and at the contraction's coordinate on its column axis; -/
private theorem lhs_numer_1 (i : S1024x256.Idx) (q : dot_S1024x1024_S1024x256_S1024x256_1_0_0_1_n_n.contr.Idx) :
    (dot_S1024x1024_S1024x256_S1024x256_1_0_0_1_n_n.lhsIdx i q 1).val = (q ⟨0, by decide⟩).val :=
  dot_S1024x1024_S1024x256_S1024x256_1_0_0_1_n_n.lhsIdx_val_of_single rfl i q

/-- the right operand at the contraction's coordinate on its row axis … -/
private theorem rhs_numer_0 (i : S1024x256.Idx) (q : dot_S1024x1024_S1024x256_S1024x256_1_0_0_1_n_n.contr.Idx) :
    (dot_S1024x1024_S1024x256_S1024x256_1_0_0_1_n_n.rhsIdx i q 0).val = (q ⟨0, by decide⟩).val :=
  dot_S1024x1024_S1024x256_S1024x256_1_0_0_1_n_n.rhsIdx_val_of_single rfl i q

/-- … and at column (i 1) of the output index. -/
private theorem rhs_numer_1 (i : S1024x256.Idx) (q : dot_S1024x1024_S1024x256_S1024x256_1_0_0_1_n_n.contr.Idx) :
    (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide),
    dif_pos (show (1 : Fin S1024x256.rank) ∈ dot_S1024x1024_S1024x256_S1024x256_1_0_0_1_n_n.rhsNonContracting by decide)]
  rfl

/-- A product of two tiles plus the matrix product of a 1024x1024 tile with a 1024x256 tile into zero, at (p, d): the
    contraction re-indexed by its one coordinate is the sum over the 1024 columns. -/
private theorem numer_read (c acc : FVec Ideal S1024x256 .f32) (L : FVec Ideal S1024x1024 .bf16)
    (R : FVec Ideal S1024x256 .bf16) (p : Fin 1024) (d : Fin 256) :
    addf (mulf c acc)
        (matmul (F := Ideal) dot_S1024x1024_S1024x256_S1024x256_1_0_0_1_n_n none L R (constant (F := Ideal) S1024x256 .f32 0x00000000#32)) (ix2 p d)
      = c (ix2 p d) * acc (ix2 p d) + ∑ k : Fin 1024, L (ix2 p k) * R (ix2 k d) := by
  refine (addf_apply (mulf c acc) _ (ix2 p d)).trans ?_
  refine congrArg₂ (· + ·) (mulf_apply c acc (ix2 p d)) ?_
  refine (Ideal.matmul_constant_zero_apply (φ₁ := .bf16) (φ₂ := .bf16) dot_S1024x1024_S1024x256_S1024x256_1_0_0_1_n_n none L R (ix2 p d)).trans ?_
  rw [← Equiv.sum_comp (contrEquiv1 dot_S1024x1024_S1024x256_S1024x256_1_0_0_1_n_n 1024 rfl rfl).symm]
  refine Finset.sum_congr rfl fun k _ => ?_
  have hk := contrEquiv1_symm_val dot_S1024x1024_S1024x256_S1024x256_1_0_0_1_n_n 1024 rfl rfl k
  have el : dot_S1024x1024_S1024x256_S1024x256_1_0_0_1_n_n.lhsIdx (ix2 p d) ((contrEquiv1 dot_S1024x1024_S1024x256_S1024x256_1_0_0_1_n_n 1024 rfl rfl).symm k) = ix2 p k :=
    funext fun c => Fin.ext (by
      match c with
      | ⟨0, _⟩ => exact lhs_numer_0 _ _
      | ⟨1, _⟩ => exact (lhs_numer_1 _ _).trans hk)
  have er : dot_S1024x1024_S1024x256_S1024x256_1_0_0_1_n_n.rhsIdx (ix2 p d) ((contrEquiv1 dot_S1024x1024_S1024x256_S1024x256_1_0_0_1_n_n 1024 rfl rfl).symm k) = ix2 k d :=
    funext fun c => Fin.ext (by
      match c with
      | ⟨0, _⟩ => exact (rhs_numer_0 _ _).trans hk
      | ⟨1, _⟩ => exact rhs_numer_1 _ _)
  rw [el, er]

theorem numer_apply (a : FVec Ideal S1024x1 .f32) (pe : FVec Ideal S1024x1024 .f32) (wt : Vec Ideal S1024x256 .bf16)
    (acc : Vec Ideal S1024x256 .f32) (p : Fin 1024) (d : Fin 256) :
    k0_pay2 (F := Ideal) a pe wt acc (ix2 p d)
      = a (ix2 p 0) * acc (ix2 p d) + ∑ k : Fin 1024, pe (ix2 p k) * wt (ix2 k d) := by
  unfold k0_pay2
  show shapeCast S1024x256
      (addf (mulf (broadcastTo S1024x256 a broadcasts_S1024x1_S1024x256) acc)
        (matmul (F := Ideal) dot_S1024x1024_S1024x256_S1024x256_1_0_0_1_n_n none (truncf .bf16 pe bitsLt_bf16_f32)
          (shapeCast S1024x256 wt shapeCasts_S1024x256_S1024x256) (constant (F := Ideal) S1024x256 .f32 0x00000000#32)))
      shapeCasts_S1024x256_S1024x256 (ix2 p d) = _
  rw [shapeCast_self, shapeCast_self]
  refine (numer_read (broadcastTo S1024x256 a broadcasts_S1024x1_S1024x256) acc (truncf .bf16 pe bitsLt_bf16_f32) wt p d).trans ?_
  rw [bcast_col a broadcasts_S1024x1_S1024x256 p d]
  exact congrArg (a (ix2 p 0) * acc (ix2 p d) + ·)
    (Finset.sum_congr rfl fun k _ => congrArg (· * wt (ix2 k d)) (truncf_apply pe bitsLt_bf16_f32 (ix2 p k)))

/-! ## The output: elu of numerator over denominator -/

theorem out_apply (acc : Vec Ideal S1024x256 .f32) (l : Vec Ideal S1024x1 .f32) (p : Fin 1024) (d : Fin 256) :
    k0_pay4 (F := Ideal) acc l (ix2 p d) = Attn.elu (Ideal.div (acc (ix2 p d)) (l (ix2 p 0))) :=
  (elu_read (divf acc (broadcastTo S1024x256 l broadcasts_S1024x1_S1024x256)) (ix2 p d)).trans
    (congrArg Attn.elu ((divf_apply acc (broadcastTo S1024x256 l broadcasts_S1024x1_S1024x256) (ix2 p d)).trans
      (congrArg (Ideal.div (acc (ix2 p d))) (bcast_col l broadcasts_S1024x1_S1024x256 p d))))

end Cert.KernelIdeal.Pay

end
-- ==== Proof.KernelInputs.lean ====
/-
  What the tiled aggregation finds in its four input arrays, entry by entry.

  Before the tiles are visited, Wh = X · W is formed, then the two score vectors Wh · a_src (a column) and Wh · a_dst
  (a column, transposed to a row), and Wh is kept once more in a narrower format, which changes no extended real.
  Read at an index these are the projection and the scores of the specification. The 8 × 8 tiles are visited row by
  row: tile t sees rows 1024 (t / 8) … of the source scores, columns 1024 (t % 8) … of the destination scores, the
  matching 1024 × 1024 block of the adjacency matrix, and all of Wh.
-/
import proofs.«430110_j20169166422637_3_alg».proof.Proof.Gen.KernelIdeal.Frame
import proofs.«430110_j20169166422637_3_alg».proof.Proof.Spec
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws

noncomputable section

namespace Cert.KernelIdeal.Inputs

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-! ## The arrays the five operations before the region leave

Wh = X · W, then Wh · a_src and Wh · a_dst (each a column), the second transposed to a row, and Wh again in the narrower
format, which on extended reals is Wh itself. -/

/-- A product of an M × K by a K × N array over the one shared axis, read at (r, c): the sum over the K positions of
    that axis. The record's left operand is indexed (result row, position), its right operand (position, result
    column). -/
private theorem dot_apply {M K N : Nat} (D : DotDims ⟨2, ![M, K]⟩ ⟨2, ![K, N]⟩ ⟨2, ![M, N]⟩)
    (hrank : D.contr.rank = 1) (hsize : D.contr.size ⟨0, by omega⟩ = K)
    (hlc : D.lhsContracting = [(1 : Fin 2)]) (hrc : D.rhsContracting = [(0 : Fin 2)])
    (hl : ∀ j k, (D.lhsIdx j k (0 : Fin 2)).val = (j (0 : Fin 2)).val)
    (hr : ∀ j k, (D.rhsIdx j k (1 : Fin 2)).val = (j (1 : Fin 2)).val)
    (lhs : FVec Ideal ⟨2, ![M, K]⟩ .f32) (rhs : FVec Ideal ⟨2, ![K, N]⟩ .f32) (r : Fin M) (c : Fin N) :
    Host.dotGeneral D none lhs rhs (ix2 r c) = ∑ k : Fin K, lhs (ix2 r k) * rhs (ix2 k c) := by
  simp only [Host.dotGeneral]
  rw [Ideal.dotGeneral_apply, ← Equiv.sum_comp (contrEquiv1 D K hrank hsize).symm]
  refine Finset.sum_congr rfl fun k _ => ?_
  have e1 : D.lhsIdx (ix2 r c) ((contrEquiv1 D K hrank hsize).symm k) = ix2 r k := by
    funext a; apply Fin.ext
    match a with
    | ⟨0, _⟩ => exact hl _ _
    | ⟨1, _⟩ => exact (D.lhsIdx_val_of_single hlc _ _).trans (contrEquiv1_symm_val D K hrank hsize k)
  have e2 : D.rhsIdx (ix2 r c) ((contrEquiv1 D K hrank hsize).symm k) = ix2 k c := by
    funext a; apply Fin.ext
    match a with
    | ⟨0, _⟩ => exact (D.rhsIdx_val_of_single hrc _ _).trans (contrEquiv1_symm_val D K hrank hsize k)
    | ⟨1, _⟩ => exact hr _ _
  rw [e1, e2]

/-- The first product's record reads its left operand's row off the result's row … -/
private theorem lhs_proj_0 (j : S8192x256.Idx) (k : dot_S8192x256_S256x256_S8192x256_1_0_0_1_n_n.contr.Idx) :
    (dot_S8192x256_S256x256_S8192x256_1_0_0_1_n_n.lhsIdx j k (0 : Fin 2)).val = (j (0 : Fin 2)).val := by
  simp [DotDims.lhsIdx, dot_S8192x256_S256x256_S8192x256_1_0_0_1_n_n]; rfl
/-- … and its right operand's column off the result's column. -/
private theorem rhs_proj_1 (j : S8192x256.Idx) (k : dot_S8192x256_S256x256_S8192x256_1_0_0_1_n_n.contr.Idx) :
    (dot_S8192x256_S256x256_S8192x256_1_0_0_1_n_n.rhsIdx j k (1 : Fin 2)).val = (j (1 : Fin 2)).val := by
  simp [DotDims.rhsIdx, dot_S8192x256_S256x256_S8192x256_1_0_0_1_n_n]; rfl
/-- The same for the record of the two products with an attention vector. -/
private theorem lhs_score_0 (j : S8192x1.Idx) (k : dot_S8192x256_S256x1_S8192x1_1_0_0_1_n_n.contr.Idx) :
    (dot_S8192x256_S256x1_S8192x1_1_0_0_1_n_n.lhsIdx j k (0 : Fin 2)).val = (j (0 : Fin 2)).val := by
  simp [DotDims.lhsIdx, dot_S8192x256_S256x1_S8192x1_1_0_0_1_n_n]; rfl
private theorem rhs_score_1 (j : S8192x1.Idx) (k : dot_S8192x256_S256x1_S8192x1_1_0_0_1_n_n.contr.Idx) :
    (dot_S8192x256_S256x1_S8192x1_1_0_0_1_n_n.rhsIdx j k (1 : Fin 2)).val = (j (1 : Fin 2)).val := by
  simp [DotDims.rhsIdx, dot_S8192x256_S256x1_S8192x1_1_0_0_1_n_n]
  exact (Nat.lt_one_iff.mp (idx2_lt1 j)).symm

/-- X · W read at (r, d). -/
private theorem proj_apply (X : FVec Ideal S8192x256 .f32) (W : FVec Ideal S256x256 .f32) (r : Fin 8192) (d : Fin 256) :
    Host.dotGeneral dot_S8192x256_S256x256_S8192x256_1_0_0_1_n_n none X W (ix2 r d) = Attn.proj X W r d :=
  dot_apply dot_S8192x256_S256x256_S8192x256_1_0_0_1_n_n rfl rfl rfl rfl lhs_proj_0 rhs_proj_1 X W r d

/-- (X · W) · a read at row r. -/
private theorem score_apply (X : FVec Ideal S8192x256 .f32) (W : FVec Ideal S256x256 .f32) (a : FVec Ideal S256x1 .f32) (r : Fin 8192) :
    Host.dotGeneral dot_S8192x256_S256x1_S8192x1_1_0_0_1_n_n none
        (Host.dotGeneral dot_S8192x256_S256x256_S8192x256_1_0_0_1_n_n none X W) a (ix2 r 0)
      = Attn.score X W a r := by
  rw [dot_apply dot_S8192x256_S256x1_S8192x1_1_0_0_1_n_n rfl rfl rfl rfl lhs_score_0 rhs_score_1 _ a r 0]
  exact Finset.sum_congr rfl fun d _ => by rw [proj_apply]

/-- The source-score column as the region finds it: (X · W) · a_src. -/
private theorem V_fsrc (c : Dev nD) :
    (V m c main_call0_v1 : S8192x1.Idx → EReal)
      = Host.dotGeneral (F := Ideal) (φ₁ := .f32) (φ₂ := .f32) dot_S8192x256_S256x1_S8192x1_1_0_0_1_n_n none
          (Host.dotGeneral (F := Ideal) (φ₁ := .f32) (φ₂ := .f32) dot_S8192x256_S256x256_S8192x256_1_0_0_1_n_n none
            (m ((c : Thread nD τ).loc main_arg0)) (m ((c : Thread nD τ).loc main_arg2)))
          (m ((c : Thread nD τ).loc main_arg3)) := by
  dsimp only [Gen.V, Gen.hostOps0]; after_results; rfl

/-- The destination-score row as the region finds it: the transpose of the column (X · W) · a_dst. -/
private theorem V_fdst (c : Dev nD) :
    (V m c main_call0_v3 : S1x8192.Idx → EReal)
      = transpose S1x8192 [1, 0]
          (Host.dotGeneral (F := Ideal) (φ₁ := .f32) (φ₂ := .f32) dot_S8192x256_S256x1_S8192x1_1_0_0_1_n_n none
            (Host.dotGeneral (F := Ideal) (φ₁ := .f32) (φ₂ := .f32) dot_S8192x256_S256x256_S8192x256_1_0_0_1_n_n none
              (m ((c : Thread nD τ).loc main_arg0)) (m ((c : Thread nD τ).loc main_arg2)))
            (m ((c : Thread nD τ).loc main_arg4)))
          transposes_S8192x1_S1x8192_1_0 := by
  dsimp only [Gen.V, Gen.hostOps0]; after_results; rfl

/-- The projected features as the region finds them: X · W in the narrower format. -/
private theorem V_wh (c : Dev nD) :
    (V m c main_call0_v4 : S8192x256.Idx → EReal)
      = truncf (F := Ideal) .bf16
          (Host.dotGeneral (F := Ideal) (φ₁ := .f32) (φ₂ := .f32) dot_S8192x256_S256x256_S8192x256_1_0_0_1_n_n none
            (m ((c : Thread nD τ).loc main_arg0)) (m ((c : Thread nD τ).loc main_arg2)))
          bitsLt_bf16_f32 := by
  dsimp only [Gen.V, Gen.hostOps0]; after_results; rfl

/-- Row r of the source-score column is the source score of row r. -/
theorem fsrc_apply (c : Dev nD) (r : Fin 8192) :
    (V m c main_call0_v1 : Vec Ideal S8192x1 .f32) (ix2 r 0)
      = Attn.score (m ((c : Thread nD τ).loc main_arg0)) (m ((c : Thread nD τ).loc main_arg2)) (m ((c : Thread nD τ).loc main_arg3)) r :=
  (congrFun (V_fsrc m c) (ix2 r 0)).trans (score_apply _ _ _ r)

/-- Column j of the destination-score row is the destination score of row j: the transpose reads the column at (j, 0). -/
theorem fdst_apply (c : Dev nD) (j : Fin 8192) :
    (V m c main_call0_v3 : Vec Ideal S1x8192 .f32) (ix2 0 j)
      = Attn.score (m ((c : Thread nD τ).loc main_arg0)) (m ((c : Thread nD τ).loc main_arg2)) (m ((c : Thread nD τ).loc main_arg4)) j := by
  refine (congrFun (V_fdst m c) (ix2 0 j)).trans ?_
  refine (transpose_apply _ _ transposes_S8192x1_S1x8192_1_0 (ix2 0 j) (ix2 j 0) (fun b => ?_)).trans (score_apply _ _ _ j)
  match b with
  | ⟨0, _⟩ => rfl
  | ⟨1, _⟩ => rfl

/-- Entry (j, d) of the projected features is entry (j, d) of X · W: narrowing the format changes no extended real. -/
theorem wh_apply (c : Dev nD) (j : Fin 8192) (d : Fin 256) :
    (V m c main_call0_v4 : Vec Ideal S8192x256 .bf16) (ix2 j d)
      = Attn.proj (m ((c : Thread nD τ).loc main_arg0)) (m ((c : Thread nD τ).loc main_arg2)) j d :=
  (congrFun (V_wh m c) (ix2 j d)).trans (proj_apply _ _ j d)

/-! ## The blocks of the four input windows

The grid is 8 × 8, row-major: point t has block row t / 8 and block column t % 8. A coordinate of a block
inside its array is (block index) × (block extent) + (coordinate inside the block). -/

/-- The index maps of the four input windows at point t, decided over the 64 points. -/
theorem index_maps : ∀ t : Fin cfg0.N,
    win0_0.index t (0 : Fin 2) = t.val / 8 ∧ win0_0.index t (1 : Fin 2) = 0
    ∧ win0_1.index t (0 : Fin 2) = 0 ∧ win0_1.index t (1 : Fin 2) = t.val % 8
    ∧ win0_2.index t (0 : Fin 2) = t.val / 8 ∧ win0_2.index t (1 : Fin 2) = t.val % 8
    ∧ win0_3.index t (0 : Fin 2) = 0 ∧ win0_3.index t (1 : Fin 2) = 0 :=
  (by decide +kernel : ∀ t : Fin grid0.N,
    win0_0.index t (0 : Fin 2) = t.val / 8 ∧ win0_0.index t (1 : Fin 2) = 0
    ∧ win0_1.index t (0 : Fin 2) = 0 ∧ win0_1.index t (1 : Fin 2) = t.val % 8
    ∧ win0_2.index t (0 : Fin 2) = t.val / 8 ∧ win0_2.index t (1 : Fin 2) = t.val % 8
    ∧ win0_3.index t (0 : Fin 2) = 0 ∧ win0_3.index t (1 : Fin 2) = 0)

/-- Row p of the source-score block at point t is row 1024 (t / 8) + p of the source-score column. -/
theorem fsrc_blk (c : Dev nD) (t : Fin cfg0.N) (p : Fin 1024) (hr : 1024 * (t.val / 8) + p.val < 8192) :
    (iblk m c 0 t : Vec Ideal S1024x1 .f32) (ix2 p 0) = (V m c main_call0_v1 : Vec Ideal S8192x1 .f32) (ix2 ⟨1024 * (t.val / 8) + p.val, hr⟩ 0) := by
  obtain ⟨e0, e1, -⟩ := index_maps t
  show (V m c main_call0_v1 : Vec Ideal S8192x1 .f32) (((cfg0.win 0).blk t).view.emb (ix2 p 0)) = _
  refine congrArg _ ?_
  funext a; apply Fin.ext
  match a with
  | ⟨0, _⟩ => show win0_0.index t (0 : Fin 2) * 1024 + 1 * p.val = 1024 * (t.val / 8) + p.val; omega
  | ⟨1, _⟩ => show win0_0.index t (1 : Fin 2) * 1 + 1 * 0 = 0; omega

/-- Column k of the destination-score block at point t is column 1024 (t % 8) + k of the destination-score row. -/
theorem fdst_blk (c : Dev nD) (t : Fin cfg0.N) (k : Fin 1024) (hj : 1024 * (t.val % 8) + k.val < 8192) :
    (iblk m c 1 t : Vec Ideal S1x1024 .f32) (ix2 0 k) = (V m c main_call0_v3 : Vec Ideal S1x8192 .f32) (ix2 0 ⟨1024 * (t.val % 8) + k.val, hj⟩) := by
  obtain ⟨-, -, e0, e1, -⟩ := index_maps t
  show (V m c main_call0_v3 : Vec Ideal S1x8192 .f32) (((cfg0.win 1).blk t).view.emb (ix2 0 k)) = _
  refine congrArg _ ?_
  funext a; apply Fin.ext
  match a with
  | ⟨0, _⟩ => show win0_1.index t (0 : Fin 2) * 1 + 1 * 0 = 0; omega
  | ⟨1, _⟩ => show win0_1.index t (1 : Fin 2) * 1024 + 1 * k.val = 1024 * (t.val % 8) + k.val; omega

/-- Entry (p, k) of the adjacency block at point t is entry (1024 (t / 8) + p, 1024 (t % 8) + k) of the adjacency
    matrix, which no operation before the region writes. -/
theorem adj_blk (c : Dev nD) (t : Fin cfg0.N) (p k : Fin 1024) (hr : 1024 * (t.val / 8) + p.val < 8192) (hj : 1024 * (t.val % 8) + k.val < 8192) :
    (iblk m c 2 t : Vec Ideal S1024x1024 .i32) (ix2 p k)
      = (m ((c : Thread nD τ).loc main_arg1) : Vec Ideal S8192x8192 .i32) (ix2 ⟨1024 * (t.val / 8) + p.val, hr⟩ ⟨1024 * (t.val % 8) + k.val, hj⟩) := by
  obtain ⟨-, -, -, -, e0, e1, -⟩ := index_maps t
  rw [← V_main_arg1 m c]
  show (V m c main_arg1 : Vec Ideal S8192x8192 .i32) (((cfg0.win 2).blk t).view.emb (ix2 p k)) = _
  refine congrArg _ ?_
  funext a; apply Fin.ext
  match a with
  | ⟨0, _⟩ => show win0_2.index t (0 : Fin 2) * 1024 + 1 * p.val = 1024 * (t.val / 8) + p.val; omega
  | ⟨1, _⟩ => show win0_2.index t (1 : Fin 2) * 1024 + 1 * k.val = 1024 * (t.val % 8) + k.val; omega

/-- The block of the projected features is the whole array at every point. -/
theorem wh_blk (c : Dev nD) (t : Fin cfg0.N) (y : S8192x256.Idx) :
    (iblk m c 3 t : Vec Ideal S8192x256 .bf16) y = (V m c main_call0_v4 : Vec Ideal S8192x256 .bf16) y := by
  obtain ⟨-, -, -, -, -, -, e0, e1⟩ := index_maps t
  show (V m c main_call0_v4 : Vec Ideal S8192x256 .bf16) (((cfg0.win 3).blk t).view.emb y) = _
  refine congrArg _ ?_
  funext a; apply Fin.ext
  match a with
  | ⟨0, _⟩ => show win0_3.index t (0 : Fin 2) * 8192 + 1 * (y 0).val = (y 0).val; omega
  | ⟨1, _⟩ => show win0_3.index t (1 : Fin 2) * 256 + 1 * (y 1).val = (y 1).val; omega

end Cert.KernelIdeal.Inputs

end
-- ==== Proof.Invariant.lean ====
/-
  The carried state of the kernel, grid point by grid point.

  The grid is 8 row blocks by 8 column tiles, walked row-major: point n works on rows 1024·(n / 8) … and on columns
  1024·(n % 8) …. Claim: after point n, for every row p of the block, the three scratch buffers hold a running shift μ
  (some real), the denominator e^{-μ} Σ_{j < 1024·(n % 8 + 1)} e^{σ_j} and the numerators e^{-μ} Σ_{j < …} e^{σ_j} Wh_jd
  of that row, σ the row's masked logits. A row block's first point starts from the reset values; every later point
  takes what the point before left. At the eighth tile the sums are over all 8192 columns and the output block is
  elu of their quotient: the specification's value.
-/
import proofs.«430110_j20169166422637_3_alg».proof.Proof.Gen.KernelIdeal.Frame
import proofs.«430110_j20169166422637_3_alg».proof.Proof.Pieces
import proofs.«430110_j20169166422637_3_alg».proof.Proof.Payloads
import proofs.«430110_j20169166422637_3_alg».proof.Proof.KernelInputs
import proofs.«430110_j20169166422637_3_alg».proof.Proof.Spec

set_option maxRecDepth 16384

noncomputable section

namespace Cert.KernelIdeal.Online

open Cert.KernelIdeal Cert.KernelIdeal.Gen Idealize.ShloMosaic Idealize.ShloMosaic.TcCoe Idealize.SL.Sem
open Idealize.ShloMosaic.ValueIdx

/-! ## One tile step on a row, over any blocks -/

/-- A later tile: from the state after `cnt` columns to the state after `cnt + 1024`, when the tile's logits and
    value rows are the row's next 1024. -/
theorem step_vars {σ : ℕ → ℝ} {ω : ℕ → Fin 256 → ℝ} {cnt : ℕ}
    (x0 : Vec Ideal S1024x1 .f32) (x1 : Vec Ideal S1x1024 .f32) (x2 : Vec Ideal S1024x1024 .i32)
    (wt : Vec Ideal S1024x256 .bf16) (xs0 xs1 : Vec Ideal S1024x1 .f32) (xs2 : Vec Ideal S1024x256 .f32) (p : Fin 1024)
    (hinv : Attn.RowInv σ ω cnt (xs0 (ix2 p 0)) (xs1 (ix2 p 0)) (fun d => xs2 (ix2 p d)))
    (hs : ∀ k : Fin 1024, k0_pay8 (F := Ideal) x0 x1 x2 (ix2 p k) = ((σ (cnt + k.val) : ℝ) : EReal))
    (hw : ∀ (k : Fin 1024) (d : Fin 256), wt (ix2 k d) = ((ω (cnt + k.val) d : ℝ) : EReal)) :
    Attn.RowInv σ ω (cnt + 1024)
      (k0_pay3 (F := Ideal) (k0_pay9 x0 x1 x2 xs0) (ix2 p 0))
      (k0_pay1 (F := Ideal) (k0_pay12 x0 x1 x2 xs0 xs0 xs1) (ix2 p 0))
      (fun d => k0_pay2 (F := Ideal) (k0_pay10 x0 x1 x2 xs0 xs0) (k0_pay11 x0 x1 x2 xs0) wt xs2 (ix2 p d)) := by
  rw [Pay.pay3_eq, Pay.pay1_eq, Pay.denom_apply x0 x1 x2 xs0 xs0 xs1 p]
  simp only [Pay.numer_apply, Pay.rescale_apply x0 x1 x2 xs0 xs0 p, Pay.weights_apply x0 x1 x2 xs0 p, Pay.newmax_apply x0 x1 x2 xs0 p]
  exact hinv.step (fun k => k0_pay8 (F := Ideal) x0 x1 x2 (ix2 p k)) (fun k d => wt (ix2 k d)) hs hw

/-- The first tile of a row block: the same update applied to the reset values −∞, 0, 0. -/
theorem first_vars {σ : ℕ → ℝ} {ω : ℕ → Fin 256 → ℝ}
    (x0 : Vec Ideal S1024x1 .f32) (x1 : Vec Ideal S1x1024 .f32) (x2 : Vec Ideal S1024x1024 .i32)
    (wt : Vec Ideal S1024x256 .bf16) (p : Fin 1024)
    (hs : ∀ k : Fin 1024, k0_pay8 (F := Ideal) x0 x1 x2 (ix2 p k) = ((σ k.val : ℝ) : EReal))
    (hw : ∀ (k : Fin 1024) (d : Fin 256), wt (ix2 k d) = ((ω k.val d : ℝ) : EReal)) :
    Attn.RowInv σ ω 1024
      (k0_pay3 (F := Ideal) (k0_pay9 x0 x1 x2 (k0_pay5 (F := Ideal))) (ix2 p 0))
      (k0_pay1 (F := Ideal) (k0_pay12 x0 x1 x2 (k0_pay5 (F := Ideal)) (k0_pay5 (F := Ideal)) (k0_pay6 (F := Ideal))) (ix2 p 0))
      (fun d => k0_pay2 (F := Ideal) (k0_pay10 x0 x1 x2 (k0_pay5 (F := Ideal)) (k0_pay5 (F := Ideal))) (k0_pay11 x0 x1 x2 (k0_pay5 (F := Ideal))) wt (k0_pay7 (F := Ideal)) (ix2 p d)) := by
  rw [Pay.pay3_eq, Pay.pay1_eq, Pay.denom_apply x0 x1 x2 (k0_pay5 (F := Ideal)) (k0_pay5 (F := Ideal)) (k0_pay6 (F := Ideal)) p]
  simp only [Pay.numer_apply, Pay.rescale_apply x0 x1 x2 (k0_pay5 (F := Ideal)) (k0_pay5 (F := Ideal)) p, Pay.weights_apply x0 x1 x2 (k0_pay5 (F := Ideal)) p,
    Pay.newmax_apply x0 x1 x2 (k0_pay5 (F := Ideal)) p, Pay.pay5_apply, Pay.pay6_apply, Pay.pay7_apply]
  exact Attn.RowInv.first (fun k => k0_pay8 (F := Ideal) x0 x1 x2 (ix2 p k)) (fun k d => wt (ix2 k d)) hs hw

/-- The output element from a row's final state: elu of the quotient of the two sums over all 8192 columns. -/
theorem out_vars {σ : ℕ → ℝ} {ω : ℕ → Fin 256 → ℝ} (accn : Vec Ideal S1024x256 .f32) (mn ln : Vec Ideal S1024x1 .f32)
    (p : Fin 1024) (d : Fin 256)
    (hinv : Attn.RowInv σ ω 8192 (mn (ix2 p 0)) (ln (ix2 p 0)) (fun d => accn (ix2 p d))) :
    k0_pay4 (F := Ideal) accn ln (ix2 p d)
      = Attn.elu (((∑ j ∈ Finset.range 8192, Real.exp (σ j) * ω j d) / (∑ j ∈ Finset.range 8192, Real.exp (σ j)) : ℝ) : EReal) :=
  (Pay.out_apply accn ln p d).trans (congrArg Attn.elu (hinv.quotient d))

/-! ## The blocks of a grid point -/

variable (m : (ℓ : Loc nD τ sig) → Buf (Elt Ideal) ℓ)

/-- The five argument arrays. -/
abbrev argX (c : Dev nD) : FVec Ideal Attn.SX .f32 := m ((c : Thread nD τ).loc main_arg0)
abbrev argAdj (c : Dev nD) : IVec Attn.SAdj 32 := m ((c : Thread nD τ).loc main_arg1)
abbrev argW (c : Dev nD) : FVec Ideal Attn.SW .f32 := m ((c : Thread nD τ).loc main_arg2)
abbrev argSrc (c : Dev nD) : FVec Ideal Attn.SA .f32 := m ((c : Thread nD τ).loc main_arg3)
abbrev argDst (c : Dev nD) : FVec Ideal Attn.SA .f32 := m ((c : Thread nD τ).loc main_arg4)

/-- Column tile n % 8 reads the resident value array from row 1024·(n % 8): decided over the 64 grid points. -/
theorem off_facts : ∀ t : Fin cfg0.N, k0_off1 (grid0.coords t) 0 = 1024 * (t.val % 8) ∧ k0_off1 (grid0.coords t) 1 = 0 :=
  (by decide +kernel : ∀ t : Fin grid0.N, k0_off1 (grid0.coords t) 0 = 1024 * (t.val % 8) ∧ k0_off1 (grid0.coords t) 1 = 0)

/-- The tile of logits at point t is the row's logits at columns 1024·(t % 8) + k. -/
theorem tile_logit (c : Dev nD) (hR : Attn.AllReal (argX m c) (argW m c) (argSrc m c) (argDst m c))
    (t : Fin cfg0.N) (p k : Fin 1024) (row : Fin 8192) (hrow : row.val = 1024 * (t.val / 8) + p.val) :
    k0_pay8 (F := Ideal) (iblk m c 0 t) (iblk m c 1 t) (iblk m c 2 t) (ix2 p k)
      = ((Attn.sigma (argX m c) (argAdj m c) (argW m c) (argSrc m c) (argDst m c) row (1024 * (t.val % 8) + k.val) : ℝ) : EReal) := by
  have hN : t.val < 64 := lt_of_lt_of_eq t.isLt N_0
  have hr : 1024 * (t.val / 8) + p.val < 8192 := by have := p.isLt; omega
  have hj : 1024 * (t.val % 8) + k.val < 8192 := by have := k.isLt; omega
  obtain rfl : row = ⟨1024 * (t.val / 8) + p.val, hr⟩ := Fin.ext hrow
  refine (Pay.logits_apply (iblk m c 0 t) (iblk m c 1 t) (iblk m c 2 t) p k).trans ?_
  rw [Inputs.fsrc_blk m c t p hr, Inputs.fdst_blk m c t k hj, Inputs.adj_blk m c t p k hr hj,
    Inputs.fsrc_apply m c, Inputs.fdst_apply m c]
  exact Attn.pairLogit_eq hR ⟨_, hr⟩ ⟨_, hj⟩

/-- The tile of value rows at point t is Wh at rows 1024·(t % 8) + k. -/
theorem tile_value (c : Dev nD) (hR : Attn.AllReal (argX m c) (argW m c) (argSrc m c) (argDst m c))
    (t : Fin cfg0.N) (k : Fin 1024) (d : Fin 256) :
    whTile (F := Ideal) (grid0.coords t) (iblk m c 3 t) (ix2 k d)
      = ((Attn.omega (argX m c) (argW m c) (1024 * (t.val % 8) + k.val) d : ℝ) : EReal) := by
  have hN : t.val < 64 := lt_of_lt_of_eq t.isLt N_0
  have hj : 1024 * (t.val % 8) + k.val < 8192 := by have := k.isLt; omega
  have hidx : (Rect.unit (s := S8192x256) (k0_off1 (grid0.coords t)) S1024x256.size (k0_off1_inb (grid0.coords t))).idx (ix2 k d)
      = ix2 (⟨1024 * (t.val % 8) + k.val, hj⟩ : Fin 8192) d := by
    funext a
    apply Fin.ext
    match a with
    | ⟨0, _⟩ =>
      show k0_off1 (grid0.coords t) 0 + 1 * k.val = 1024 * (t.val % 8) + k.val
      rw [(off_facts t).1]; omega
    | ⟨1, _⟩ =>
      show k0_off1 (grid0.coords t) 1 + 1 * d.val = d.val
      rw [(off_facts t).2]; omega
  show (iblk m c 3 t : Vec Ideal S8192x256 .bf16)
      ((Rect.unit (s := S8192x256) (k0_off1 (grid0.coords t)) S1024x256.size (k0_off1_inb (grid0.coords t))).idx (ix2 k d)) = _
  rw [hidx, Inputs.wh_blk m c t, Inputs.wh_apply m c ⟨_, hj⟩ d]
  exact Attn.proj_eq hR ⟨_, hj⟩ d

/-! ## The state after every grid point -/

/-- A row block's first point (n % 8 = 0) leaves the state of 1024 aggregated columns. -/
theorem inv_first (c : Dev nD) (hR : Attn.AllReal (argX m c) (argW m c) (argSrc m c) (argDst m c))
    (t : Fin cfg0.N) (h0 : t.val % 8 = 0) (p : Fin 1024) (row : Fin 8192) (hrow : row.val = 1024 * (t.val / 8) + p.val) :
    Attn.RowInv (Attn.sigma (argX m c) (argAdj m c) (argW m c) (argSrc m c) (argDst m c) row) (Attn.omega (argX m c) (argW m c)) 1024
        (((outsAt0 m c t.val t.isLt).2.1 : Vec Ideal S1024x1 .f32) (ix2 p 0))
        (((outsAt0 m c t.val t.isLt).2.2.1 : Vec Ideal S1024x1 .f32) (ix2 p 0))
        (fun d => ((outsAt0 m c t.val t.isLt).2.2.2 : Vec Ideal S1024x256 .f32) (ix2 p d)) := by
  have h1 : ¬ t.val % 8 = 7 := by omega
  rw [outsAt0_A m c t h0 h1]
  dsimp only
  rw [sout0_A_0_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t), sout0_A_1_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t), sout0_A_2_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)]
  refine first_vars (iblk m c 0 t) (iblk m c 1 t) (iblk m c 2 t) (whTile (grid0.coords t) (iblk m c 3 t)) p (fun k => ?_) (fun k d => ?_)
  · rw [tile_logit m c hR t p k row hrow]
    have e : 1024 * (t.val % 8) + k.val = k.val := by omega
    rw [e]
  · rw [tile_value m c hR t k d]
    have e : 1024 * (t.val % 8) + k.val = k.val := by omega
    rw [e]

/-- A later point takes the state the point before left, after 1024·(n % 8) columns, to 1024 columns more. -/
theorem inv_step (c : Dev nD) (hR : Attn.AllReal (argX m c) (argW m c) (argSrc m c) (argDst m c))
    (t : Fin cfg0.N) (h0 : ¬ t.val % 8 = 0) (p : Fin 1024) (row : Fin 8192) (hrow : row.val = 1024 * (t.val / 8) + p.val)
    (hprev : Attn.RowInv (Attn.sigma (argX m c) (argAdj m c) (argW m c) (argSrc m c) (argDst m c) row) (Attn.omega (argX m c) (argW m c)) (1024 * (t.val % 8))
        (((outsAt0 m c (t.val - 1) (Nat.lt_of_le_of_lt (Nat.sub_le _ _) t.isLt)).2.1 : Vec Ideal S1024x1 .f32) (ix2 p 0))
        (((outsAt0 m c (t.val - 1) (Nat.lt_of_le_of_lt (Nat.sub_le _ _) t.isLt)).2.2.1 : Vec Ideal S1024x1 .f32) (ix2 p 0))
        (fun d => ((outsAt0 m c (t.val - 1) (Nat.lt_of_le_of_lt (Nat.sub_le _ _) t.isLt)).2.2.2 : Vec Ideal S1024x256 .f32) (ix2 p d))) :
    Attn.RowInv (Attn.sigma (argX m c) (argAdj m c) (argW m c) (argSrc m c) (argDst m c) row) (Attn.omega (argX m c) (argW m c)) (1024 * (t.val % 8) + 1024)
        (((outsAt0 m c t.val t.isLt).2.1 : Vec Ideal S1024x1 .f32) (ix2 p 0))
        (((outsAt0 m c t.val t.isLt).2.2.1 : Vec Ideal S1024x1 .f32) (ix2 p 0))
        (fun d => ((outsAt0 m c t.val t.isLt).2.2.2 : Vec Ideal S1024x256 .f32) (ix2 p d)) := by
  by_cases h1 : t.val % 8 = 7
  · rw [outsAt0_C m c t h0 h1]
    dsimp only
    rw [sout0_C_0_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_1_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_2_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]
    exact step_vars (iblk m c 0 t) (iblk m c 1 t) (iblk m c 2 t) (whTile (grid0.coords t) (iblk m c 3 t))
      (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 p hprev
      (fun k => tile_logit m c hR t p k row hrow) (fun k d => tile_value m c hR t k d)
  · rw [outsAt0_B m c t h0 h1]
    dsimp only
    rw [sout0_B_0_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_2_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]
    exact step_vars (iblk m c 0 t) (iblk m c 1 t) (iblk m c 2 t) (whTile (grid0.coords t) (iblk m c 3 t))
      (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 p hprev
      (fun k => tile_logit m c hR t p k row hrow) (fun k d => tile_value m c hR t k d)

/-- After point n, row p of its row block is in the state of `1024·(n % 8 + 1)` aggregated columns. -/
theorem scratch_inv (c : Dev nD) (hR : Attn.AllReal (argX m c) (argW m c) (argSrc m c) (argDst m c)) (n : ℕ) :
    ∀ (hn : n < cfg0.N) (p : Fin 1024) (row : Fin 8192), row.val = 1024 * (n / 8) + p.val →
      Attn.RowInv (Attn.sigma (argX m c) (argAdj m c) (argW m c) (argSrc m c) (argDst m c) row) (Attn.omega (argX m c) (argW m c)) (1024 * (n % 8 + 1))
        (((outsAt0 m c n hn).2.1 : Vec Ideal S1024x1 .f32) (ix2 p 0))
        (((outsAt0 m c n hn).2.2.1 : Vec Ideal S1024x1 .f32) (ix2 p 0))
        (fun d => ((outsAt0 m c n hn).2.2.2 : Vec Ideal S1024x256 .f32) (ix2 p d)) := by
  induction n using Nat.strong_induction_on with
  | _ n ih =>
    intro hn p row hrow
    by_cases h0 : n % 8 = 0
    · have hc : 1024 * (n % 8 + 1) = 1024 := by omega
      rw [hc]
      exact inv_first m c hR ⟨n, hn⟩ h0 p row hrow
    · have hlt : n - 1 < cfg0.N := Nat.lt_of_le_of_lt (Nat.sub_le _ _) hn
      have hprev := ih (n - 1) (by omega) hlt p row (by omega)
      have hcnt : 1024 * ((n - 1) % 8 + 1) = 1024 * (n % 8) := by omega
      have hc : 1024 * (n % 8 + 1) = 1024 * (n % 8) + 1024 := by omega
      rw [hcnt] at hprev
      rw [hc]
      exact inv_step m c hR ⟨n, hn⟩ h0 p row hrow hprev

/-- What a row block's last point stores in the output block: the specification's values of its rows. -/
theorem out_block (c : Dev nD) (hR : Attn.AllReal (argX m c) (argW m c) (argSrc m c) (argDst m c))
    (t : Fin cfg0.N) (h0 : ¬ t.val % 8 = 0) (h1 : t.val % 8 = 7) (p : Fin 1024) (d : Fin 256) (row : Fin 8192)
    (hrow : row.val = 1024 * (t.val / 8) + p.val) :
    ((outsAt0 m c t.val t.isLt).1 : Vec Ideal S1024x256 .f32) (ix2 p d)
      = Attn.G (argX m c) (argAdj m c) (argW m c) (argSrc m c) (argDst m c) (ix2 row d) := by
  have hinv := scratch_inv m c hR t.val t.isLt p row hrow
  have hc : 1024 * (t.val % 8 + 1) = 8192 := by omega
  rw [hc, outsAt0_C m c t h0 h1] at hinv
  dsimp only at hinv
  rw [sout0_C_0_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_1_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_2_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2] at hinv
  rw [outsAt0_C m c t h0 h1]
  dsimp only
  rw [out0_C_4_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]
  exact out_vars _ _ _ p d hinv

end Cert.KernelIdeal.Online

end
-- ==== Proof.KernelWhole.lean ====
/-
  From the output's blocks to the whole result array of the kernel program.

  The output window's block index depends on the row block only; a block is written back once, after the row block's
  eighth column tile, and then holds the specification's values of its 1024 rows. The eight written blocks are the
  row ranges [1024·q, 1024·(q+1)), which tile the 8192 rows: so the array ends at the specification everywhere.
-/
import proofs.«430110_j20169166422637_3_alg».proof.Proof.Gen.KernelIdeal.Value
import proofs.«430110_j20169166422637_3_alg».proof.Proof.Invariant

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The output's block index at point t is (t / 8, 0): decided over the 64 grid points. -/
theorem out_index : ∀ t : Fin cfg0.N, win0_4.index t (0 : Fin 2) = t.val / 8 ∧ win0_4.index t (1 : Fin 2) = 0 :=
  (by decide +kernel : ∀ t : Fin grid0.N, win0_4.index t (0 : Fin 2) = t.val / 8 ∧ win0_4.index t (1 : Fin 2) = 0)

/-- What a writing point writes back is its block of the specification. -/
theorem written_eq (c : Dev nD) (hR : Attn.AllReal (Online.argX m c) (Online.argW m c) (Online.argSrc m c) (Online.argDst m c)) (t : Fin cfg0.N) (hf : (cfg0.win 4).flush t = true) :
    (dats m 0 c).flushed 4 t = ((cfg0.win 4).blk t).view.read (Elt Ideal) (Attn.G (Online.argX m c) (Online.argAdj m c) (Online.argW m c) (Online.argSrc m c) (Online.argDst m c)) := by
  have h1 : t.val % 8 = 7 := (flush0_4 t).mp hf
  have h0 : ¬ t.val % 8 = 0 := by omega
  have hN : t.val < 64 := lt_of_lt_of_eq t.isLt N_0
  rw [Value.flushed4]
  funext j
  obtain ⟨p, d, rfl⟩ : ∃ (p : Fin 1024) (d : Fin 256), j = (ix2 p d : S1024x256.Idx) :=
    ⟨j 0, j 1, eq_ix2 (n0 := 1024) (n1 := 256) j⟩
  have hr : 1024 * (t.val / 8) + p.val < 8192 := by have := p.isLt; omega
  show ((outsAt0 m c t.val t.isLt).1 : Vec Ideal S1024x256 .f32) (ix2 p d)
    = Attn.G (Online.argX m c) (Online.argAdj m c) (Online.argW m c) (Online.argSrc m c) (Online.argDst m c) (((cfg0.win 4).blk t).view.emb (ix2 p d))
  have hemb : ((cfg0.win 4).blk t).view.emb (ix2 p d) = (ix2 (⟨1024 * (t.val / 8) + p.val, hr⟩ : Fin 8192) d : S8192x256.Idx) := by
    funext a
    apply Fin.ext
    match a with
    | ⟨0, _⟩ =>
      show win0_4.index t (0 : Fin 2) * 1024 + 1 * p.val = 1024 * (t.val / 8) + p.val
      rw [(out_index t).1]; omega
    | ⟨1, _⟩ =>
      show win0_4.index t (1 : Fin 2) * 256 + 1 * d.val = d.val
      rw [(out_index t).2]; omega
  rw [hemb]
  exact Online.out_block m c hR t h0 h1 p d ⟨_, hr⟩ rfl

/-- An index is in point t's block iff each coordinate is in the block's range on its axis. -/
theorem mem_block (t : Fin cfg0.N) (i : S8192x256.Idx) :
    i ∈ ((cfg0.win 4).blk t).view.set ↔ ∀ a : Fin 2, win0_4.index t a * S1024x256.size a ≤ (i a).val
      ∧ (i a).val < win0_4.index t a * S1024x256.size a + S1024x256.size a := by
  show i ∈ ((View.whole main_v0).slice (win0_4.rect t)).set ↔ _
  rw [View.set_slice_whole, Rect.mem_set_unit]
  exact Iff.rfl

/-- Every row lies in the block written after its row block's last column tile. -/
theorem covered (i : S8192x256.Idx) :
    ∃ t : Fin cfg0.N, (cfg0.win 4).flush t = true ∧ i ∈ ((cfg0.win 4).blk t).view.set := by
  have hi0 : (i 0).val < 8192 := (i 0).isLt
  have hi1 : (i 1).val < 256 := (i 1).isLt
  have hlt : 8 * ((i 0).val / 1024) + 7 < cfg0.N := lt_of_lt_of_eq (by omega : 8 * ((i 0).val / 1024) + 7 < 64) N_0.symm
  refine ⟨⟨8 * ((i 0).val / 1024) + 7, hlt⟩, (flush0_4 _).mpr (by show (8 * ((i 0).val / 1024) + 7) % 8 = 7; omega), ?_⟩
  rw [mem_block]
  obtain ⟨e0, e1⟩ := out_index ⟨8 * ((i 0).val / 1024) + 7, hlt⟩
  have e0' : win0_4.index ⟨8 * ((i 0).val / 1024) + 7, hlt⟩ (0 : Fin 2) = (8 * ((i 0).val / 1024) + 7) / 8 := e0
  intro a
  match a with
  | ⟨0, _⟩ =>
    show win0_4.index ⟨8 * ((i 0).val / 1024) + 7, hlt⟩ (0 : Fin 2) * 1024 ≤ (i 0).val
      ∧ (i 0).val < win0_4.index ⟨8 * ((i 0).val / 1024) + 7, hlt⟩ (0 : Fin 2) * 1024 + 1024
    rw [e0']; omega
  | ⟨1, _⟩ =>
    show win0_4.index ⟨8 * ((i 0).val / 1024) + 7, hlt⟩ (1 : Fin 2) * 256 ≤ (i 1).val
      ∧ (i 1).val < win0_4.index ⟨8 * ((i 0).val / 1024) + 7, hlt⟩ (1 : Fin 2) * 256 + 256
    rw [e1]; omega

/-- The result array after the run is the specification of the argument arrays. -/
theorem final (c : Dev nD) (hR : Attn.AllReal (Online.argX m c) (Online.argW m c) (Online.argSrc m c) (Online.argDst m c)) :
    (dats m 0 c).arrAt 4 cfg0.N = Attn.G (Online.argX m c) (Online.argAdj m c) (Online.argW m c) (Online.argSrc m c) (Online.argDst m c) :=
  (dats m 0 c).arrAt_eq_of_cover 4 (Attn.G (Online.argX m c) (Online.argAdj m c) (Online.argW m c) (Online.argSrc m c) (Online.argDst m c)) (fun t hf => written_eq m c hR t hf) covered

/-- The kernel program's run: the result at the specification, the arguments unchanged. -/
theorem run (ρ : Dev nD → PrngReg) (hR : ∀ c : Dev nD, Attn.AllReal (Online.argX m c) (Online.argW m c) (Online.argSrc m c) (Online.argDst m c)) :
    θ_run defs (onTc (τ := τ) (main (F := Ideal))) ⟨m, fun _ => 0, ρ⟩ fun r => ∀ c : Dev nD,
      r.2.mem ((c : Thread nD τ).loc main_v0) = Attn.G (Online.argX m c) (Online.argAdj m c) (Online.argW m c) (Online.argSrc m c) (Online.argDst m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c (hR c)), (h c).2⟩) (Value.run_blocks m ρ)

end Cert.KernelIdeal.Whole

end
-- ==== Proof.RefStraight.lean ====
/-
  The reference program as a straight line of its 52 host operations — each outlined function
  (leaky_relu, the three `where`s, elu) written out at its call over that call's buffers — and what a run of it leaves in
  the result buffer: the operations' composed term `refOut` of the five arguments, the arguments unchanged.
-/
import proofs.«430110_j20169166422637_3_alg».proof.Proof.Gen.ReferenceIdeal
import Idealize.ShloMosaic.Lib.StableHlo.Run

noncomputable section

namespace Cert.ReferenceIdeal.Straight

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls unfolded: the three projections and the transpose; the two broadcasts and
    their sum; leaky_relu (zero, its broadcast, the comparison, the slope converted and broadcast, the product, the
    select); the mask (zero word, broadcast, signed comparison); the masked select with the stand-in converted and
    broadcast; softmax (row maximum from −∞, joined with −∞ again, broadcast twice, the difference, the exponential, the
    row sum from 0, broadcast twice, the quotient); the aggregation; elu (zero and comparison twice, the clamped
    argument, exp − 1, times one, the select). -/
abbrev ops : List (HloOp τ sig (Elt F)) :=
  [ binary main_arg0 main_arg2 main_v0 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    binary main_v0 main_arg3 main_v1 ((fun l r => Host.dotGeneral dot_S8192x256_S256x1_S8192x1_1_0_0_1_n_n none l r) : (⟨S8192x256, .f32⟩ : BufTy).Contents (Elt F) → (⟨S256x1, .f32⟩ : BufTy).Contents (Elt F) → (⟨S8192x1, .f32⟩ : BufTy).Contents (Elt F)),
    binary main_v0 main_arg4 main_v2 ((fun l r => Host.dotGeneral dot_S8192x256_S256x1_S8192x1_1_0_0_1_n_n none l r) : (⟨S8192x256, .f32⟩ : BufTy).Contents (Elt F) → (⟨S256x1, .f32⟩ : BufTy).Contents (Elt F) → (⟨S8192x1, .f32⟩ : BufTy).Contents (Elt F)),
    unary main_v2 main_v3 ((transpose S1x8192 [1, 0] · transposes_S8192x1_S1x8192_1_0) : (⟨S8192x1, .f32⟩ : BufTy).Contents (Elt F) → (⟨S1x8192, .f32⟩ : BufTy).Contents (Elt F)),
    unary main_v1 main_v4 (broadcastInDim S8192x8192 ![0, 1] bcast_S8192x1_S8192x8192_0_1 : (⟨S8192x1, .f32⟩ : BufTy).Contents (Elt F) → (⟨S8192x8192, .f32⟩ : BufTy).Contents (Elt F)),
    unary main_v3 main_v5 (broadcastInDim S8192x8192 ![0, 1] bcast_S1x8192_S8192x8192_0_1 : (⟨S1x8192, .f32⟩ : BufTy).Contents (Elt F) → (⟨S8192x8192, .f32⟩ : BufTy).Contents (Elt F)),
    binary main_v4 main_v5 main_v6 (addf : (⟨S8192x8192, .f32⟩ : BufTy).Contents (Elt F) → (⟨S8192x8192, .f32⟩ : BufTy).Contents (Elt F) → (⟨S8192x8192, .f32⟩ : BufTy).Contents (Elt F)),
    nullary main_cst (constant S_ .f32 0x3E4CCCCD#32),
    TRef.nullary main_call0.cst (constant S_ .f32 0x00000000#32),
    TRef.unary main_call0.cst main_call0.v0 (broadcastInDim S8192x8192 ![] bcast_S_S8192x8192),
    TRef.binary (.of main_v6) main_call0.v0 main_call0.v1 (cmpf .oge),
    TRef.unary (.of main_cst) main_call0.v2 id,
    TRef.unary main_call0.v2 main_call0.v3 (broadcastInDim S8192x8192 ![] bcast_S_S8192x8192),
    TRef.binary main_call0.v3 (.of main_v6) main_call0.v4 mulf,
    TRef.ternary main_call0.v1 (.of main_v6) main_call0.v4 main_call0.call0.v0 select,
    nullary main_c (constantI S_ 32 0#32),
    unary main_c main_v8 (broadcastInDim S8192x8192 ![] bcast_S_S8192x8192 : (⟨S_, .i32⟩ : BufTy).Contents (Elt F) → (⟨S8192x8192, .i32⟩ : BufTy).Contents (Elt F)),
    binary main_arg1 main_v8 main_v9 (cmpi .sgt : (⟨S8192x8192, .i32⟩ : BufTy).Contents (Elt F) → (⟨S8192x8192, .i32⟩ : BufTy).Contents (Elt F) → (⟨S8192x8192, .i1⟩ : BufTy).Contents (Elt F)),
    nullary main_cst_0 (constant S_ .f32 0xD9FFCB9E#32),
    TRef.unary (.of main_cst_0) main_call1.v0 id,
    TRef.unary main_call1.v0 main_call1.v1 (broadcastInDim S8192x8192 ![] bcast_S_S8192x8192),
    TRef.ternary (.of main_v9) (.of main_v7) main_call1.v1 main_call1.v2 select,
    nullary main_cst_1 (constant S_ .f32 0xFF800000#32),
    binary main_v10 main_cst_1 main_v11 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_2 (constant S_ .f32 0xFF800000#32),
    unary main_cst_2 main_v12 (broadcastInDim S8192 ![] bcast_S_S8192 : (⟨S_, .f32⟩ : BufTy).Contents (Elt F) → (⟨S8192, .f32⟩ : BufTy).Contents (Elt F)),
    binary main_v12 main_v11 main_v13 (maximumf : (⟨S8192, .f32⟩ : BufTy).Contents (Elt F) → (⟨S8192, .f32⟩ : BufTy).Contents (Elt F) → (⟨S8192, .f32⟩ : BufTy).Contents (Elt F)),
    unary main_v13 main_v14 (broadcastInDim S8192x1 ![0] bcast_S8192_S8192x1_0 : (⟨S8192, .f32⟩ : BufTy).Contents (Elt F) → (⟨S8192x1, .f32⟩ : BufTy).Contents (Elt F)),
    unary main_v14 main_v15 (broadcastInDim S8192x8192 ![0, 1] bcast_S8192x1_S8192x8192_0_1 : (⟨S8192x1, .f32⟩ : BufTy).Contents (Elt F) → (⟨S8192x8192, .f32⟩ : BufTy).Contents (Elt F)),
    binary main_v10 main_v15 main_v16 (subf : (⟨S8192x8192, .f32⟩ : BufTy).Contents (Elt F) → (⟨S8192x8192, .f32⟩ : BufTy).Contents (Elt F) → (⟨S8192x8192, .f32⟩ : BufTy).Contents (Elt F)),
    unary main_v16 main_v17 (Host.exp : (⟨S8192x8192, .f32⟩ : BufTy).Contents (Elt F) → (⟨S8192x8192, .f32⟩ : BufTy).Contents (Elt F)),
    nullary main_cst_3 (constant S_ .f32 0x00000000#32),
    binary main_v17 main_cst_3 main_v18 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v18 main_v19 (broadcastInDim S8192x1 ![0] bcast_S8192_S8192x1_0 : (⟨S8192, .f32⟩ : BufTy).Contents (Elt F) → (⟨S8192x1, .f32⟩ : BufTy).Contents (Elt F)),
    unary main_v19 main_v20 (broadcastInDim S8192x8192 ![0, 1] bcast_S8192x1_S8192x8192_0_1 : (⟨S8192x1, .f32⟩ : BufTy).Contents (Elt F) → (⟨S8192x8192, .f32⟩ : BufTy).Contents (Elt F)),
    binary main_v17 main_v20 main_v21 (Host.divf : (⟨S8192x8192, .f32⟩ : BufTy).Contents (Elt F) → (⟨S8192x8192, .f32⟩ : BufTy).Contents (Elt F) → (⟨S8192x8192, .f32⟩ : BufTy).Contents (Elt F)),
    binary main_v21 main_v0 main_v22 ((fun l r => Host.dotGeneral dot_S8192x8192_S8192x256_S8192x256_1_0_0_1_n_n none l r) : (⟨S8192x8192, .f32⟩ : BufTy).Contents (Elt F) → (⟨S8192x256, .f32⟩ : BufTy).Contents (Elt F) → (⟨S8192x256, .f32⟩ : BufTy).Contents (Elt F)),
    TRef.nullary main_call2.cst (constant S_ .f32 0x00000000#32),
    TRef.unary main_call2.cst main_call2.v0 (broadcastInDim S8192x256 ![] bcast_S_S8192x256),
    TRef.binary (.of main_v22) main_call2.v0 main_call2.v1 (cmpf .ogt),
    TRef.nullary main_call2.cst_0 (constant S_ .f32 0x00000000#32),
    TRef.unary main_call2.cst_0 main_call2.v2 (broadcastInDim S8192x256 ![] bcast_S_S8192x256),
    TRef.binary (.of main_v22) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S8192x256 ![] bcast_S_S8192x256),
    TRef.ternary main_call2.v3 main_call2.call0.v1 (.of main_v22) main_call2.call0.v2 select,
    TRef.unary main_call2.call0.v2 main_call2.v5 Host.expm1,
    TRef.nullary main_call2.cst_2 (constant S_ .f32 0x3F800000#32),
    TRef.unary main_call2.cst_2 main_call2.v6 (broadcastInDim S8192x256 ![] bcast_S_S8192x256),
    TRef.binary main_call2.v6 main_call2.v5 main_call2.v7 mulf,
    TRef.ternary main_call2.v1 (.of main_v22) main_call2.v7 main_call2.call1.v0 select ]

set_option maxRecDepth 2048 in
/-- @main is that straight line: the functions' definitions unfolded at their calls, the sequencing reassociated. -/
theorem main_eq (c : Dev nD) : main (F := F) c = seq ops := by
  simp only [main, fn_leaky_relu.body, fn_where.body, fn_where_0.body, fn_where_1.body, fn_where_2.body, fn_elu.body,
    seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., binary_bufs_sub .., binary_bufs_sub .., unary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub .., unary_bufs_sub .., binary_bufs_sub .., nullary_bufs_sub .., unary_bufs_sub .., unary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

/-- The composed term of the 52 operations: what the result buffer holds, as a function of the five arguments. -/
def refOut (X : FVec F S8192x256 .f32) (adj : IVec S8192x8192 32) (W : FVec F S256x256 .f32) (asrc adst : FVec F S256x1 .f32) :
    FVec F S8192x256 .f32 :=
  let wh : FVec F S8192x256 .f32 := Host.dotGeneral dot_S8192x256_S256x256_S8192x256_1_0_0_1_n_n none X W
  let fsrc : FVec F S8192x1 .f32 := Host.dotGeneral dot_S8192x256_S256x1_S8192x1_1_0_0_1_n_n none wh asrc
  let fdst : FVec F S8192x1 .f32 := Host.dotGeneral dot_S8192x256_S256x1_S8192x1_1_0_0_1_n_n none wh adst
  let e : FVec F S8192x8192 .f32 := addf (broadcastInDim S8192x8192 ![0, 1] bcast_S8192x1_S8192x8192_0_1 fsrc)
    (broadcastInDim S8192x8192 ![0, 1] bcast_S1x8192_S8192x8192_0_1 (transpose S1x8192 [1, 0] fdst transposes_S8192x1_S1x8192_1_0))
  let lrelu : FVec F S8192x8192 .f32 :=
    select (cmpf .oge e (broadcastInDim S8192x8192 ![] bcast_S_S8192x8192 (constant S_ .f32 0x00000000#32))) e
      (mulf (broadcastInDim S8192x8192 ![] bcast_S_S8192x8192 (id (constant S_ .f32 0x3E4CCCCD#32))) e)
  let att : FVec F S8192x8192 .f32 :=
    select (cmpi .sgt adj (broadcastInDim S8192x8192 ![] bcast_S_S8192x8192 (constantI S_ 32 0#32))) lrelu
      (broadcastInDim S8192x8192 ![] bcast_S_S8192x8192 (id (constant S_ .f32 0xD9FFCB9E#32)))
  let mx : FVec F S8192 .f32 := maximumf (broadcastInDim S8192 ![] bcast_S_S8192 (constant S_ .f32 0xFF800000#32))
    (Host.reduce FloatOps.maximumf att (constant S_ .f32 0xFF800000#32) reducesTo_S8192x8192_S8192_d1 h_S_)
  let u : FVec F S8192x8192 .f32 := Host.exp (subf att
    (broadcastInDim S8192x8192 ![0, 1] bcast_S8192x1_S8192x8192_0_1 (broadcastInDim S8192x1 ![0] bcast_S8192_S8192x1_0 mx)))
  let tot : FVec F S8192 .f32 := Host.reduceAdd u (constant S_ .f32 0x00000000#32) reducesTo_S8192x8192_S8192_d1 h_S_
  let p : FVec F S8192x8192 .f32 := Host.divf u
    (broadcastInDim S8192x8192 ![0, 1] bcast_S8192x1_S8192x8192_0_1 (broadcastInDim S8192x1 ![0] bcast_S8192_S8192x1_0 tot))
  let h : FVec F S8192x256 .f32 := Host.dotGeneral dot_S8192x8192_S8192x256_S8192x256_1_0_0_1_n_n none p wh
  let z : FVec F S8192x256 .f32 := broadcastInDim S8192x256 ![] bcast_S_S8192x256 (constant S_ .f32 0x00000000#32)
  select (cmpf .ogt h z) h
    (mulf (broadcastInDim S8192x256 ![] bcast_S_S8192x256 (constant S_ .f32 0x3F800000#32))
      (Host.expm1 (select (cmpf .ogt h z) (broadcastInDim S8192x256 ![] bcast_S_S8192x256 (id (constant S_ .f32 0x00000000#32))) h)))

attribute [local irreducible] Host.reduce Host.reduceAdd in
set_option maxRecDepth 8192 in
set_option maxHeartbeats 1600000 in
/-- The fold of the operations at the result buffer is `refOut` of the argument buffers' contents: each operation's
    result read where it is written, every other buffer as it was. -/
theorem out_eq (V : Valuation τ sig (Elt F)) :
    after ops V (Proc.devRef .tc main_v23)
      = refOut (V (Proc.devRef .tc main_arg0)) (V (Proc.devRef .tc main_arg1)) (V (Proc.devRef .tc main_arg2))
          (V (Proc.devRef .tc main_arg3)) (V (Proc.devRef .tc main_arg4)) := by
  after_results_simp
  rfl

set_option maxRecDepth 8192 in
set_option maxHeartbeats 1600000 in
theorem arg0_eq (V : Valuation τ sig (Elt F)) : after ops V (Proc.devRef .tc main_arg0) = V (Proc.devRef .tc main_arg0) := by
  after_results_simp
set_option maxRecDepth 8192 in
set_option maxHeartbeats 1600000 in
theorem arg1_eq (V : Valuation τ sig (Elt F)) : after ops V (Proc.devRef .tc main_arg1) = V (Proc.devRef .tc main_arg1) := by
  after_results_simp
set_option maxRecDepth 8192 in
set_option maxHeartbeats 1600000 in
theorem arg2_eq (V : Valuation τ sig (Elt F)) : after ops V (Proc.devRef .tc main_arg2) = V (Proc.devRef .tc main_arg2) := by
  after_results_simp
set_option maxRecDepth 8192 in
set_option maxHeartbeats 1600000 in
theorem arg3_eq (V : Valuation τ sig (Elt F)) : after ops V (Proc.devRef .tc main_arg3) = V (Proc.devRef .tc main_arg3) := by
  after_results_simp
set_option maxRecDepth 8192 in
set_option maxHeartbeats 1600000 in
theorem arg4_eq (V : Valuation τ sig (Elt F)) : after ops V (Proc.devRef .tc main_arg4) = V (Proc.devRef .tc main_arg4) := by
  after_results_simp

/-- On every device, from any memory with zero counters: every weakly fair execution of the reference terminates with
    the result at `refOut` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v23)
          = refOut (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v23).trans (out_eq _),
      (h c main_arg0).trans (arg0_eq _), (h c main_arg1).trans (arg1_eq _), (h c main_arg2).trans (arg2_eq _),
      (h c main_arg3).trans (arg3_eq _), (h c main_arg4).trans (arg4_eq _)⟩)
    (run_seq scopedRefs_eq scopedSems_eq defs main (fun _ => ops) main_eq (fun _ => ops_sub) m ρ)

end Cert.ReferenceIdeal.Straight

end
-- ==== Proof.RefValue.lean ====
/-
  The reference's result, entry by entry, is the specification's.

  Its arrays are read at an index one after another: Wh = X · W and the two score columns Wh · a as sums over 256
  features; the pair sum f_src r + f_dst j through the two spreads and the transpose; the leaky_relu and the adjacency
  mask as the scalar expression `Attn.logit`; the row maximum as the running maximum from −∞ along the row, a real
  number M_r when the arguments are real; the shifted exponentials e^{σ_rj − M_r}, their row total, the quotient; the
  aggregation as a sum over the 8192 columns, which is (Σ_j e^{σ_rj} Wh_jd) / (Σ_j e^{σ_rj}) whatever M_r is; and elu in
  its clamped spelling, which is elu.
-/
import proofs.«430110_j20169166422637_3_alg».proof.Proof.RefStraight
import proofs.«430110_j20169166422637_3_alg».proof.Proof.Spec
import Idealize.ShloMosaic.Lib.ValueIdx
import Idealize.ShloMosaic.Lib.ValueIdxRank1
import Idealize.ShloMosaic.Lib.Pipeline.Value
import Idealize.ShloMosaic.Lib.ValueLayout
import Idealize.ShloMosaic.Lib.StackMember
import Idealize.ShloMosaic.PureOps.Ideal.Laws
noncomputable section
namespace Cert.ReferenceIdeal.RefValue
open Cert.ReferenceIdeal Cert.ReferenceIdeal.Gen Cert.ReferenceIdeal.Straight Idealize.ShloMosaic Idealize.ShloMosaic.ValueIdx

/-! ## The reference's intermediate arrays, named -/

/-- Wh = X · W. -/
def wh (X : FVec Ideal S8192x256 .f32) (W : FVec Ideal S256x256 .f32) : FVec Ideal S8192x256 .f32 :=
  Host.dotGeneral dot_S8192x256_S256x256_S8192x256_1_0_0_1_n_n none X W

/-- Wh · a, a column. -/
def fcol (X : FVec Ideal S8192x256 .f32) (W : FVec Ideal S256x256 .f32) (a : FVec Ideal S256x1 .f32) : FVec Ideal S8192x1 .f32 :=
  Host.dotGeneral dot_S8192x256_S256x1_S8192x1_1_0_0_1_n_n none (wh X W) a

/-- The sum of the source column along rows and the destination column along columns. -/
def esum (X : FVec Ideal S8192x256 .f32) (W : FVec Ideal S256x256 .f32) (asrc adst : FVec Ideal S256x1 .f32) :
    FVec Ideal S8192x8192 .f32 :=
  addf (broadcastInDim S8192x8192 ![0, 1] bcast_S8192x1_S8192x8192_0_1 (fcol X W asrc))
    (broadcastInDim S8192x8192 ![0, 1] bcast_S1x8192_S8192x8192_0_1
      (transpose S1x8192 [1, 0] (fcol X W adst) transposes_S8192x1_S1x8192_1_0))

/-- The masked logits. -/
def att (X : FVec Ideal S8192x256 .f32) (adj : IVec S8192x8192 32) (W : FVec Ideal S256x256 .f32)
    (asrc adst : FVec Ideal S256x1 .f32) : FVec Ideal S8192x8192 .f32 :=
  select (cmpi .sgt adj (broadcastInDim S8192x8192 ![] bcast_S_S8192x8192 (constantI S_ 32 0#32)))
    (select (cmpf .oge (esum X W asrc adst) (broadcastInDim S8192x8192 ![] bcast_S_S8192x8192 (constant S_ .f32 0x00000000#32)))
      (esum X W asrc adst)
      (mulf (broadcastInDim S8192x8192 ![] bcast_S_S8192x8192 (id (constant S_ .f32 0x3E4CCCCD#32))) (esum X W asrc adst)))
    (broadcastInDim S8192x8192 ![] bcast_S_S8192x8192 (id (constant S_ .f32 0xD9FFCB9E#32)))

/-- The row maxima of an array of logits, joined with −∞. -/
def rowMax (A : FVec Ideal S8192x8192 .f32) : FVec Ideal S8192 .f32 :=
  maximumf (broadcastInDim S8192 ![] bcast_S_S8192 (constant S_ .f32 0xFF800000#32))
    (Host.reduce FloatOps.maximumf A (constant S_ .f32 0xFF800000#32) reducesTo_S8192x8192_S8192_d1 h_S_)

/-- The exponentials of the logits shifted by their row's maximum. -/
def shiftExp (A : FVec Ideal S8192x8192 .f32) : FVec Ideal S8192x8192 .f32 :=
  Host.exp (subf A
    (broadcastInDim S8192x8192 ![0, 1] bcast_S8192x1_S8192x8192_0_1 (broadcastInDim S8192x1 ![0] bcast_S8192_S8192x1_0 (rowMax A))))

/-- Their row sums. -/
def rowTot (A : FVec Ideal S8192x8192 .f32) : FVec Ideal S8192 .f32 :=
  Host.reduceAdd (shiftExp A) (constant S_ .f32 0x00000000#32) reducesTo_S8192x8192_S8192_d1 h_S_

/-- The softmax weights. -/
def soft (A : FVec Ideal S8192x8192 .f32) : FVec Ideal S8192x8192 .f32 :=
  Host.divf (shiftExp A)
    (broadcastInDim S8192x8192 ![0, 1] bcast_S8192x1_S8192x8192_0_1 (broadcastInDim S8192x1 ![0] bcast_S8192_S8192x1_0 (rowTot A)))

/-- The aggregate before elu. -/
def agg (X : FVec Ideal S8192x256 .f32) (adj : IVec S8192x8192 32) (W : FVec Ideal S256x256 .f32)
    (asrc adst : FVec Ideal S256x1 .f32) : FVec Ideal S8192x256 .f32 :=
  Host.dotGeneral dot_S8192x8192_S8192x256_S8192x256_1_0_0_1_n_n none (soft (att X adj W asrc adst)) (wh X W)

/-- The reference's term, over the named arrays. -/
theorem refOut_unfold (X : FVec Ideal S8192x256 .f32) (adj : IVec S8192x8192 32) (W : FVec Ideal S256x256 .f32)
    (asrc adst : FVec Ideal S256x1 .f32) :
    refOut (F := Ideal) X adj W asrc adst
      = select (cmpf .ogt (agg X adj W asrc adst) (broadcastInDim S8192x256 ![] bcast_S_S8192x256 (constant S_ .f32 0x00000000#32)))
          (agg X adj W asrc adst)
          (mulf (broadcastInDim S8192x256 ![] bcast_S_S8192x256 (constant S_ .f32 0x3F800000#32))
            (Host.expm1 (select (cmpf .ogt (agg X adj W asrc adst) (broadcastInDim S8192x256 ![] bcast_S_S8192x256 (constant S_ .f32 0x00000000#32)))
              (broadcastInDim S8192x256 ![] bcast_S_S8192x256 (id (constant S_ .f32 0x00000000#32))) (agg X adj W asrc adst)))) := rfl

/-! ## The layout operations at an index -/

/-- A column [8192,1] spread along the columns of [8192,8192]: entry (r, j) is the column's entry r. -/
theorem spreadCol_apply (v : FVec Ideal S8192x1 .f32) (r j : Fin 8192) :
    broadcastInDim S8192x8192 ![0, 1] bcast_S8192x1_S8192x8192_0_1 v (ix2 r j) = v (ix2 r 0) :=
  broadcastInDim_apply _ _ v (ix2 r j) (ix2 r 0) (fun a => by
    match a with
    | ⟨0, _⟩ => rfl
    | ⟨1, _⟩ => rfl)

/-- A row [1,8192] spread along the rows of [8192,8192]: entry (r, j) is the row's entry j. -/
theorem spreadRow_apply (v : FVec Ideal S1x8192 .f32) (r j : Fin 8192) :
    broadcastInDim S8192x8192 ![0, 1] bcast_S1x8192_S8192x8192_0_1 v (ix2 r j) = v (ix2 0 j) :=
  broadcastInDim_apply _ _ v (ix2 r j) (ix2 0 j) (fun a => by
    match a with
    | ⟨0, _⟩ => rfl
    | ⟨1, _⟩ => rfl)

/-- The transpose of a column is the row with the same entries. -/
theorem transposeCol_apply (v : FVec Ideal S8192x1 .f32) (j : Fin 8192) :
    transpose S1x8192 [1, 0] v transposes_S8192x1_S1x8192_1_0 (ix2 0 j) = v (ix2 j 0) :=
  transpose_apply _ v _ (ix2 0 j) (ix2 j 0) (fun b => by
    match b with
    | ⟨0, _⟩ => rfl
    | ⟨1, _⟩ => rfl)

/-- A vector [8192] made a column and spread: entry (r, j) is the vector's entry r. -/
theorem spreadVec_apply (m : FVec Ideal S8192 .f32) (r j : Fin 8192) :
    broadcastInDim S8192x8192 ![0, 1] bcast_S8192x1_S8192x8192_0_1 (broadcastInDim S8192x1 ![0] bcast_S8192_S8192x1_0 m) (ix2 r j)
      = m (ix1 r) := by
  rw [spreadCol_apply]
  exact broadcastInDim_apply _ _ m (ix2 r 0) (ix1 r) (fun a => by
    match a with
    | ⟨0, _⟩ => rfl)

/-! ## The three projections -/

theorem dotA_eq : dot_S8192x256_S256x256_S8192x256_1_0_0_1_n_n = DotDims.plain 8192 256 256 := rfl
theorem dotB_eq : dot_S8192x256_S256x1_S8192x1_1_0_0_1_n_n = DotDims.plain 8192 256 1 := rfl
theorem dotC_eq : dot_S8192x8192_S8192x256_S8192x256_1_0_0_1_n_n = DotDims.plain 8192 8192 256 := rfl

/-- Entry (r, d) of Wh is the sum over the 256 input features. -/
theorem wh_apply (X : FVec Ideal S8192x256 .f32) (W : FVec Ideal S256x256 .f32) (r : Fin 8192) (d : Fin 256) :
    wh X W (ix2 r d) = Attn.proj X W r d := by
  unfold wh
  rw [dotA_eq]
  exact StackMember.dotGeneral_plain_apply none X W r d

/-- Entry r of Wh · a is the sum over the 256 output features. -/
theorem fcol_apply (X : FVec Ideal S8192x256 .f32) (W : FVec Ideal S256x256 .f32) (a : FVec Ideal S256x1 .f32) (r : Fin 8192) :
    fcol X W a (ix2 r 0) = Attn.score X W a r := by
  unfold fcol
  rw [dotB_eq]
  refine (StackMember.dotGeneral_plain_apply none (wh X W) a r 0).trans ?_
  exact Finset.sum_congr rfl fun d _ => by rw [wh_apply]

/-- Entry (r, j) of the broadcast sum is the source score of r plus the destination score of j. -/
theorem esum_apply (X : FVec Ideal S8192x256 .f32) (W : FVec Ideal S256x256 .f32) (asrc adst : FVec Ideal S256x1 .f32)
    (r j : Fin 8192) : esum X W asrc adst (ix2 r j) = Attn.score X W asrc r + Attn.score X W adst j := by
  unfold esum
  rw [addf_apply, spreadCol_apply, spreadRow_apply, transposeCol_apply, fcol_apply, fcol_apply]

/-- Entry (r, j) of the masked logits is the pair's logit. -/
theorem att_apply (X : FVec Ideal S8192x256 .f32) (adj : IVec S8192x8192 32) (W : FVec Ideal S256x256 .f32)
    (asrc adst : FVec Ideal S256x1 .f32) (r j : Fin 8192) :
    att X adj W asrc adst (ix2 r j) = Attn.pairLogit X adj W asrc adst r j := by
  show Scalar.select (IntOp.cmpi .sgt (adj (ix2 r j)) 0#32)
      (Scalar.select (FloatOps.cmpf .oge (esum X W asrc adst (ix2 r j)) (Ideal.ofBits .f32 0x00000000#32))
        (esum X W asrc adst (ix2 r j)) (Ideal.ofBits .f32 0x3E4CCCCD#32 * esum X W asrc adst (ix2 r j)))
      (Ideal.ofBits .f32 0xD9FFCB9E#32) = _
  rw [esum_apply]
  rfl

/-! ## The softmax, row by row -/

/-- The shape fact that names the index with a column inserted. -/
theorem reducesCols : S8192x8192.Reduces [1] S8192 := by decide

/-- Row r with column k inserted is the index (r, k). -/
theorem lift_row (r k : Fin 8192) : reducesCols.lift (ix1 r) k = ix2 r k := by
  funext a
  apply Fin.ext
  match a with
  | ⟨0, _⟩ => rfl
  | ⟨1, _⟩ => rfl

/-- The row maximum, joined with −∞, is the running maximum from −∞ along the row. -/
theorem rowMax_apply (A : FVec Ideal S8192x8192 .f32) (r : Fin 8192) :
    rowMax A (ix1 r) = max ⊥ ((Finset.univ : Finset (Fin 8192)).fold max ⊥ fun k => A (ix2 r k)) := by
  unfold rowMax
  rw [maximumf_apply]
  have e := Host.reduce_eq_fold_single (FloatOps.maximumf (F := Ideal) (φ := .f32)) A
    (constant (F := Ideal) S_ .f32 0xFF800000#32) reducesTo_S8192x8192_S8192_d1 reducesCols h_S_ (ix1 r)
  rw [e]
  have hf : (A ∘ reducesCols.lift (ix1 r)) = fun k : Fin 8192 => A (ix2 r k) := funext fun k => congrArg A (lift_row r k)
  rw [hf]
  show max (Ideal.ofBits .f32 0xFF800000#32) ((Finset.univ : Finset (Fin 8192)).fold max (Ideal.ofBits .f32 0xFF800000#32) _) = _
  rw [Attn.ofBits_neg_inf]

/-- The shifted exponential at (r, j). -/
theorem shiftExp_apply (A : FVec Ideal S8192x8192 .f32) (r j : Fin 8192) :
    shiftExp A (ix2 r j) = Ideal.exp (A (ix2 r j) - rowMax A (ix1 r)) := by
  show Ideal.exp (A (ix2 r j) - broadcastInDim S8192x8192 ![0, 1] bcast_S8192x1_S8192x8192_0_1
    (broadcastInDim S8192x1 ![0] bcast_S8192_S8192x1_0 (rowMax A)) (ix2 r j)) = _
  rw [spreadVec_apply]

/-- The row total is 0 plus the sum of the row's shifted exponentials. -/
theorem rowTot_apply (A : FVec Ideal S8192x8192 .f32) (r : Fin 8192) :
    rowTot A (ix1 r) = 0 + ∑ k : Fin 8192, shiftExp A (ix2 r k) := by
  show Ideal.hostReduceAdd reducesTo_S8192x8192_S8192_d1 (shiftExp A) (Ideal.ofBits .f32 0x00000000#32) (ix1 r) = _
  rw [Ideal.hostReduceAdd_single reducesTo_S8192x8192_S8192_d1 reducesCols, Ideal.ofBits_zero_f32]
  exact congrArg (0 + ·) (Finset.sum_congr rfl fun k _ => congrArg (shiftExp A) (lift_row r k))

/-- The softmax weight at (r, j). -/
theorem soft_apply (A : FVec Ideal S8192x8192 .f32) (r j : Fin 8192) :
    soft A (ix2 r j) = Ideal.div (shiftExp A (ix2 r j)) (rowTot A (ix1 r)) := by
  show Ideal.div (shiftExp A (ix2 r j)) (broadcastInDim S8192x8192 ![0, 1] bcast_S8192x1_S8192x8192_0_1
    (broadcastInDim S8192x1 ![0] bcast_S8192_S8192x1_0 (rowTot A)) (ix2 r j)) = _
  rw [spreadVec_apply]

/-! ## On real arguments -/

section Real
variable {X : FVec Ideal S8192x256 .f32} {adj : IVec S8192x8192 32} {W : FVec Ideal S256x256 .f32}
  {asrc adst : FVec Ideal S256x1 .f32}

/-- A logit of real arguments is the real σ_rj. -/
theorem att_real (h : Attn.AllReal X W asrc adst) (r j : Fin 8192) :
    att X adj W asrc adst (ix2 r j) = (Attn.sigma X adj W asrc adst r j.val : EReal) := by
  rw [att_apply, Attn.pairLogit_eq h]

/-- So a row's maximum is a real number. -/
theorem rowMax_real (h : Attn.AllReal X W asrc adst) (r : Fin 8192) :
    ∃ M : ℝ, rowMax (att X adj W asrc adst) (ix1 r) = (M : EReal) := by
  obtain ⟨ρ, hρ⟩ := TiledSoftmax.fold_max_real (fun k : Fin 8192 => Attn.sigma X adj W asrc adst r k.val) ⊥ bot_ne_top
  refine ⟨ρ, ?_⟩
  have hf : (fun k : Fin 8192 => att X adj W asrc adst (ix2 r k))
      = fun k : Fin 8192 => ((Attn.sigma X adj W asrc adst r k.val : ℝ) : EReal) := funext fun k => att_real h r k
  rw [rowMax_apply, hf, hρ, max_eq_right bot_le]

/-- Entry (r, d) of the aggregate is the softmax-weighted average of column d of Wh over row r's logits. -/
theorem agg_apply (h : Attn.AllReal X W asrc adst) (r : Fin 8192) (d : Fin 256) :
    agg X adj W asrc adst (ix2 r d)
      = (((∑ j ∈ Finset.range 8192, Real.exp (Attn.sigma X adj W asrc adst r j) * Attn.omega X W j d)
          / (∑ j ∈ Finset.range 8192, Real.exp (Attn.sigma X adj W asrc adst r j)) : ℝ) : EReal) := by
  obtain ⟨M, hM⟩ := rowMax_real (adj := adj) h r
  have hexp : ∀ c : Fin 8192, shiftExp (att X adj W asrc adst) (ix2 r c)
      = Ideal.exp ((Attn.sigma X adj W asrc adst r c.val : EReal) - (M : EReal)) := fun c => by
    rw [shiftExp_apply, hM, att_real h]
  have htot : rowTot (att X adj W asrc adst) (ix1 r)
      = 0 + ∑ i : Fin 8192, Ideal.exp ((Attn.sigma X adj W asrc adst r i.val : EReal) - (M : EReal)) := by
    rw [rowTot_apply]
    exact congrArg (0 + ·) (Finset.sum_congr rfl fun c _ => hexp c)
  unfold agg
  rw [dotC_eq]
  refine (StackMember.dotGeneral_plain_apply none (soft (att X adj W asrc adst)) (wh X W) r d).trans ?_
  refine (Finset.sum_congr rfl fun c _ => by rw [soft_apply, hexp, htot, wh_apply, Attn.proj_eq h]).trans ?_
  refine (TiledSoftmax.normalized_sum M (fun j : Fin 8192 => Attn.sigma X adj W asrc adst r j.val)
    (fun j : Fin 8192 => Attn.omega X W j.val d) (TiledSoftmax.sum_exp_pos _)).trans ?_
  rw [Fin.sum_univ_eq_sum_range (fun j => Real.exp (Attn.sigma X adj W asrc adst r j) * Attn.omega X W j d) 8192,
    Fin.sum_univ_eq_sum_range (fun j => Real.exp (Attn.sigma X adj W asrc adst r j)) 8192]

end Real

/-! ## The result -/

/-- The reference's result is the specification. -/
theorem refOut_eq (X : FVec Ideal S8192x256 .f32) (adj : IVec S8192x8192 32) (W : FVec Ideal S256x256 .f32) (asrc adst : FVec Ideal S256x1 .f32)
    (h : Attn.AllReal X W asrc adst) :
    refOut (F := Ideal) X adj W asrc adst = Attn.G X adj W asrc adst := by
  funext i
  obtain ⟨r, d, rfl⟩ : ∃ (r : Fin 8192) (d : Fin 256), i = ix2 r d := ⟨i 0, i 1, eq_ix2 i⟩
  rw [refOut_unfold]
  show Scalar.select (FloatOps.cmpf .ogt (agg X adj W asrc adst (ix2 r d)) (Ideal.ofBits .f32 0x00000000#32))
      (agg X adj W asrc adst (ix2 r d))
      (Ideal.ofBits .f32 0x3F800000#32 *
        (Ideal.exp (Scalar.select (FloatOps.cmpf .ogt (agg X adj W asrc adst (ix2 r d)) (Ideal.ofBits .f32 0x00000000#32))
          (Ideal.ofBits .f32 0x00000000#32) (agg X adj W asrc adst (ix2 r d))) - 1))
    = Attn.elu (((∑ j ∈ Finset.range 8192, Real.exp (Attn.sigma X adj W asrc adst r j) * Attn.omega X W j d)
        / (∑ j ∈ Finset.range 8192, Real.exp (Attn.sigma X adj W asrc adst r j)) : ℝ) : EReal)
  rw [Attn.elu_safe, agg_apply h]

end Cert.ReferenceIdeal.RefValue
end
-- ==== Proof.Finite.lean ====
import proofs.«430110_j20169166422637_3_alg».proof.Pre_finite_inputs
import proofs.«430110_j20169166422637_3_alg».proof.Proof.Spec
import Idealize.ShloMosaic.Lib.ReduceAll
import Idealize.ShloMosaic.Lib.ValueIdx
import Idealize.ShloMosaic.PureOps.Ideal

/-!
  From the precondition to "every float entry is a real number".

  The precondition is the conjunction, over the four float arguments, of  all(|x| < +∞).  Each conjunct is a reduction
  by "and" over both axes of the element-wise comparison  max(x, −x) < +∞,  so when the conjunction is 1 the comparison
  holds at every index; and an extended real whose absolute value lies strictly below +∞ is neither +∞ nor −∞.
-/

noncomputable section

namespace Cert.Pre_finite_inputs.Finite

open Cert.Pre_finite_inputs Idealize.ShloMosaic

/-- The f32 pattern with exponent field all ones, fraction zero and sign clear denotes +∞. -/
private theorem ofBits_pos_inf : Ideal.ofBits .f32 0x7F800000#32 = (⊤ : EReal) := by
  simp [Ideal.ofBits, Ideal.ieee]

/-- An extended real whose absolute value max(x, −x) lies strictly below +∞ is a real number:
    at x = +∞ the maximum is +∞, at x = −∞ it is −(−∞) = +∞. -/
private theorem real_of_abs_lt_top (x : EReal) (h : max x (-x) < ⊤) : ∃ r : ℝ, x = (r : EReal) := by
  induction x using EReal.rec with
  | bot => exact absurd h (by simp)
  | top => exact absurd h (by simp)
  | coe r => exact ⟨r, rfl⟩

/-- One element of the comparison array: if  |x| < +∞  came out true, x is a real number. -/
private theorem real_of_cmp (x : EReal)
    (h : Ideal.cmp .olt (max x (-x)) (Ideal.ofBits .f32 0x7F800000#32) = 1#1) : ∃ r : ℝ, x = (r : EReal) := by
  rw [ofBits_pos_inf] at h
  refine real_of_abs_lt_top x ?_
  by_contra hn
  have h0 : Ideal.cmp .olt (max x (-x)) ⊤ = 0#1 := by
    show BitVec.ofBool (decide (max x (-x) < ⊤)) = 0#1
    rw [decide_eq_false hn]
    rfl
  rw [h0] at h
  exact absurd h (by decide)

/-- The shape of rank 0 has one index. -/
private instance : Subsingleton S_.Idx := ⟨fun a b => funext fun d => d.elim0⟩

/-- all(|x| < +∞) over an array of any shape: if the reduction by "and" over all axes is 1, every entry is real.
    The broadcast of the scalar +∞ reads the same scalar at every index. -/
private theorem real_of_all {s : Shape} {axes : List (Fin s.rank)}
    (hb : S_.BroadcastsInDim s (![] : Fin 0 → Fin s.rank)) (hr : s.ReducesTo axes S_) (hS : 0 < S_.numel)
    (x : FVec Ideal s .f32)
    (h : Host.reduce IntOp.andi
          (cmpf .olt (Host.absf x) (broadcastInDim s ![] hb (constant (F := Ideal) S_ .f32 0x7F800000#32)))
          (constantI S_ 1 1#1) hr hS ValueIdx.ix0 = 1#1)
    (i : s.Idx) : ∃ r : ℝ, x i = (r : EReal) :=
  real_of_cmp (x i) (Host.reduce_andi_all _ _ hr hS _ h i)

/-- The precondition holding (its one bit is 1) makes all four float arguments arrays of real numbers. -/
theorem allReal_of_pre [Cert.Pre_finite_inputs.Facts] (X : FVec Ideal S8192x256 .f32) (adj : IVec S8192x8192 32) (W : FVec Ideal S256x256 .f32)
    (asrc adst : FVec Ideal S256x1 .f32)
    (h : Cert.Pre_finite_inputs.fn (F := Ideal) X adj W asrc adst = fun _ => 1#1) : Attn.AllReal X W asrc adst := by
  have h0 := congrFun h ValueIdx.ix0
  dsimp only [fn, fn_part1] at h0
  obtain ⟨h123, h4⟩ := IntOp.andi_eq_one.1 h0
  obtain ⟨h12, h3⟩ := IntOp.andi_eq_one.1 h123
  obtain ⟨h1, h2⟩ := IntOp.andi_eq_one.1 h12
  exact ⟨real_of_all _ _ _ X h1, real_of_all _ _ _ W h2, real_of_all _ _ _ asrc h3, real_of_all _ _ _ adst h4⟩

end Cert.Pre_finite_inputs.Finite

end
-- ==== Proof.lean ====
/-
  The certificate of the dense graph-attention layer: a kernel that aggregates a masked softmax tile by tile
  (an online softmax over 8 column tiles of 1024, with a running maximum, denominator and numerator per row) against
  the reference, which takes the softmax of each whole row at once.

  At the ideal instance both programs compute, for row r and column d,
      elu( Σ_j e^{σ_rj} Wh_jd / Σ_j e^{σ_rj} ),   σ_rj the masked leaky-relu logits,  Wh = X · W :
  the reference after subtracting the row maximum from the logits, the kernel after subtracting its running maximum,
  and the quotient does not depend on the shift. The logits are real because the float arguments are (the
  precondition), which is what the cancellation needs. The three frames are the generated ones and the reference's
  straight-line run; the idealization rewrote nothing.
-/
import proofs.«430110_j20169166422637_3_alg».proof.Defs
import proofs.«430110_j20169166422637_3_alg».proof.Proof.Gen.Kernel
import proofs.«430110_j20169166422637_3_alg».proof.Proof.Gen.Kernel.Skeleton
import proofs.«430110_j20169166422637_3_alg».proof.Proof.Gen.Kernel.Launch
import proofs.«430110_j20169166422637_3_alg».proof.Proof.Gen.Kernel.Points
import proofs.«430110_j20169166422637_3_alg».proof.Proof.Gen.Kernel.Frame
import proofs.«430110_j20169166422637_3_alg».proof.Proof.Gen.KernelIdeal
import proofs.«430110_j20169166422637_3_alg».proof.Proof.Gen.KernelIdeal.Skeleton
import proofs.«430110_j20169166422637_3_alg».proof.Proof.Gen.KernelIdeal.Launch
import proofs.«430110_j20169166422637_3_alg».proof.Proof.Gen.KernelIdeal.Points
import proofs.«430110_j20169166422637_3_alg».proof.Proof.Gen.KernelIdeal.Frame
import proofs.«430110_j20169166422637_3_alg».proof.Proof.Gen.KernelIdeal.Value
import proofs.«430110_j20169166422637_3_alg».proof.Proof.Gen.ReferenceIdeal
import proofs.«430110_j20169166422637_3_alg».proof.Proof.Gen.Pre_finite_inputs
import proofs.«430110_j20169166422637_3_alg».proof.Proof.KernelWhole
import proofs.«430110_j20169166422637_3_alg».proof.Proof.RefValue
import proofs.«430110_j20169166422637_3_alg».proof.Proof.Finite
import Idealize.ShloMosaic.Adequacy
import Idealize.ShloMosaic.Init

noncomputable section

namespace Cert.Proof

open Idealize.ShloMosaic Idealize.SL.Sem

attribute [local instance] Cert.Kernel.Gen.facts Cert.KernelIdeal.Gen.facts Cert.ReferenceIdeal.Gen.facts Cert.Pre_finite_inputs.Gen.facts

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Straight.run (F := Ideal) m ρ)

/-- Both runs end at the specification of the (agreeing) arguments. -/
theorem algebraic : Cert.algebraic_KernelIdeal_ReferenceIdeal := by
  intro m ρ m' ρ' hpre hagree
  have hR : ∀ c : Dev Cert.KernelIdeal.nD, Attn.AllReal (Cert.KernelIdeal.Online.argX m c) (Cert.KernelIdeal.Online.argW m c)
      (Cert.KernelIdeal.Online.argSrc m c) (Cert.KernelIdeal.Online.argDst m c) :=
    fun c => Cert.Pre_finite_inputs.Finite.allReal_of_pre _ _ _ _ _ (hpre c)
  refine ⟨_, Cert.KernelIdeal.Whole.run m ρ hR, ?_⟩
  refine (θ_run Cert.ReferenceIdeal.defs _ _).mono (fun _ h c => ⟨(h c).1.trans ?_, (h c).2⟩)
    (Cert.ReferenceIdeal.Straight.run (F := Ideal) m' ρ')
  rw [(hagree c).1, (hagree c).2.1, (hagree c).2.2.1, (hagree c).2.2.2.1, (hagree c).2.2.2.2]
  exact Cert.ReferenceIdeal.RefValue.refOut_eq _ _ _ _ _ (hR c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
